-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S100000x128 .f32) (main_arg1 : IVec S2x1600000 32) (main_arg2 : IVec S100000 32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_c_2 : IVec S_ 32 := constantI S_ 32 0#32
  let main_v9 : IVec S100000 32 := broadcastInDim S100000 ![] bcast_S_S100000 main_c_2
  let main_v10 : IVec S100000 1 := cmpi .sge main_arg2 main_v9
  let main_c_3 : IVec S_ 32 := constantI S_ 32 256#32
  let main_v11 : IVec S100000 32 := broadcastInDim S100000 ![] bcast_S_S100000 main_c_3
  let main_v12 : IVec S100000 1 := cmpi .slt main_arg2 main_v11
  let main_v13 : IVec S100000 1 := andi main_v10 main_v12
  let main_c_4 : IVec S_ 1 := constantI S_ 1 1#1
  let main_v14 : IVec S_ 1 := (fun x v => Host.reduce IntOp.andi x v reducesTo_S100000_S_d0 h_S_) main_v13 main_c_4
  let main_v15 : IVec S_ 1 := andi main_v8 main_v14
  main_v15
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S256x1 : Shape := ⟨2, ![256, 1]⟩
abbrev S2x256x128 : Shape := ⟨3, ![2, 256, 128]⟩
abbrev S1x256x128 : Shape := ⟨3, ![1, 256, 128]⟩
abbrev S256x128 : Shape := ⟨2, ![256, 128]⟩
abbrev S2000x128 : Shape := ⟨2, ![2000, 128]⟩
abbrev S2000x1 : Shape := ⟨2, ![2000, 1]⟩
abbrev S1x256 : Shape := ⟨2, ![1, 256]⟩
abbrev S2000x256 : Shape := ⟨2, ![2000, 256]⟩
abbrev S4000x128 : Shape := ⟨2, ![4000, 128]⟩
abbrev S4000x1 : Shape := ⟨2, ![4000, 1]⟩
abbrev S4000x256 : Shape := ⟨2, ![4000, 256]⟩

abbrev nBuf : Space → Nat
  | .hbm => 41
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x1, .i32⟩
  | .hbm, ⟨22, _⟩ => ⟨S_, .f32⟩
  | .hbm, ⟨23, _⟩ => ⟨S100000x1, .f32⟩
  | .hbm, ⟨24, _⟩ => ⟨S_, .f32⟩
  | .hbm, ⟨25, _⟩ => ⟨S256x1, .f32⟩
  | .hbm, ⟨26, _⟩ => ⟨S100000x1, .i32⟩
  | .hbm, ⟨27, _⟩ => ⟨S256x1, .f32⟩
  | .hbm, ⟨28, _⟩ => ⟨S100000x128, .bf16⟩
  | .hbm, ⟨29, _⟩ => ⟨S2x256x128, .f32⟩
  | .hbm, ⟨30, _⟩ => ⟨S1x256x128, .f32⟩
  | .hbm, ⟨31, _⟩ => ⟨S256x128, .f32⟩
  | .hbm, ⟨32, _⟩ => ⟨S1x256x128, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x128, .f32⟩
  | .hbm, ⟨39, _⟩ => ⟨S256x128, .f32⟩
  | .hbm, ⟨40, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .i32⟩
  | .local _ .vmem, ⟨5, _⟩ => ⟨S2000x1, .i32⟩
  | .local _ .vmem, ⟨6, _⟩ => ⟨S2000x128, .bf16⟩
  | .local _ .vmem, ⟨7, _⟩ => ⟨S2000x128, .bf16⟩
  | .local _ .vmem, ⟨8, _⟩ => ⟨S1x256x128, .f32⟩
  | .local _ .vmem, ⟨9, _⟩ => ⟨S1x256x128, .f32⟩
  | .local _ .vmem, ⟨10, _⟩ => ⟨S4000x128, .bf16⟩
  | .local _ .vmem, ⟨11, _⟩ => ⟨S4000x128, .bf16⟩
  | .local _ .vmem, ⟨12, _⟩ => ⟨S4000x1, .i32⟩
  | .local _ .vmem, ⟨13, _⟩ => ⟨S4000x1, .i32⟩
  | .local _ .vmem, ⟨14, _⟩ => ⟨S256x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c : Ref sig .tc := ⟨.hbm, 8, rfl⟩
abbrev main_call0_v4 : Ref sig .tc := ⟨.hbm, 9, rfl⟩
abbrev main_call0_v5 : Ref sig .tc := ⟨.hbm, 10, rfl⟩
abbrev main_call0_c_0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst_1 : Ref sig .tc := ⟨.hbm, 22, rfl⟩
abbrev main_call0_v15 : Ref sig .tc := ⟨.hbm, 23, rfl⟩
abbrev main_call0_cst_2 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19_0 : Ref sig .tc := ⟨.hbm, 28, rfl⟩
abbrev main_call0_v19_1 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_cst_3 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  bcast_S_S100000x1 : S_.BroadcastsInDim S100000x1 (![] : Fin 0 → Fin S100000x1.rank)
  bcast_S_S256x1 : S_.BroadcastsInDim S256x1 (![] : Fin 0 → Fin S256x1.rank)
  bcast_S100000_S100000x1_0 : S100000.BroadcastsInDim S100000x1 (![0] : Fin 1 → Fin S100000x1.rank)
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  bcast_S256x1_S256x128_0_1 : S256x1.BroadcastsInDim S256x128 (![0, 1] : Fin 2 → Fin S256x128.rank)
  inb_S1x256x128_S1x256x128_0_0_0 : ∀ a, (![0, 0, 0] : Fin 3 → Nat) a + S1x256x128.size a ≤ S1x256x128.size a
  h_S1x256x128 : 0 < S1x256x128.numel
  shapeCasts_S256x128_S1x256x128 : S256x128.ShapeCasts S1x256x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x256_d1_w32 : S1x256.Iotas .tc 32 [1]
  broadcasts_S2000x1_S2000x256 : S2000x1.Broadcasts S2000x256
  broadcasts_S1x256_S2000x256 : S1x256.Broadcasts S2000x256
  natLt_1_32 : 1 < 32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x1_S100000x1_S100000x1_1_0_0_1_wf : ScatterDims.WF S256x1 S100000x1 S100000x1 [1] [0] [0] 1
  dot_S2000x256_S2000x128_S256x128_0_0_1_1_n_n_wf : DotDims.WF S2000x256 S2000x128 S256x128 [0] [0] [1] [1] [] []
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S2x256x128.size a
  hwx0_4 : ∀ i : grid0.Coords, EltTy.bits .f32 = 32 ∨ (Rect.block (s := S2x256x128) S1x256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .i32 = 32 ∨ (Rect.block (s := S100000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19_1) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v19_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v28) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S256x128, .f32⟩
  | .hbm, ⟨24, _⟩ => ⟨S100000x1, .i32⟩
  | .hbm, ⟨25, _⟩ => ⟨S256x128, .f32⟩
  | .hbm, ⟨26, _⟩ => ⟨S_, .f32⟩
  | .hbm, ⟨27, _⟩ => ⟨S100000x1, .f32⟩
  | .hbm, ⟨28, _⟩ => ⟨S_, .f32⟩
  | .hbm, ⟨29, _⟩ => ⟨S256x1, .f32⟩
  | .hbm, ⟨30, _⟩ => ⟨S100000x1, .i32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x128, .f32⟩
  | .hbm, ⟨36, _⟩ => ⟨S256x128, .f32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S_S100000 : S_.BroadcastsInDim S100000 (![] : Fin 0 → Fin S100000.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  gather_S256x128_S100000x1_S100000x128_1_0_n_n_0_1_1128_wf : GatherDims.WF S256x128 S100000x1 S100000x128 [1] [0] [] [0] [] 1 ![1, 128]
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def gather_S256x128_S100000x1_S100000x128_1_0_n_n_0_1_1128 : GatherDims S256x128 S100000x1 S100000x128 where
  offsetDims := [1]
  collapsedSliceDims := [0]
  operandBatchingDims := []
  startIndicesBatchingDims := []
  startIndexMap := [0]
  indexVectorDim := 1
  sliceSizes := ![1, 128]
  wf := gather_S256x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.PreK.lean ====
/-
  The added precondition, read: when the precondition's word is one, every node label is a graph number, 0 ≤ label < 256.
-/
import proofs.«411695_j30116310679887_3_alg».proof.Pre_finite_inputs
import proofs.«411695_j30116310679887_3_alg».proof.Proof.Gen.Pre_finite_inputs
import Idealize.ShloMosaic.Lib.ReduceAll
import Idealize.ShloMosaic.Lib.ValueIdx
import Idealize.ShloMosaic.Lib.Affine

noncomputable section

namespace Cert.PreK

open Idealize.ShloMosaic Idealize.ShloMosaic.ValueIdx

instance : Subsingleton Cert.Pre_finite_inputs.S_.Idx := ⟨fun a b => funext fun d => d.elim0⟩

/-- A word that is at least 0 and below 256 as a signed integer is below 256 as a natural number. -/
theorem toNat_lt_of_signed (a : BitVec 32) (h0 : IntOp.cmpi .sge a 0#32 = 1#1) (h1 : IntOp.cmpi .slt a 256#32 = 1#1) :
    a.toNat < 256 := by
  have e0 : (0#32).sle a = true := by
    by_contra hc
    rw [Bool.not_eq_true] at hc
    simp [IntOp.cmpi, hc] at h0
  have e1 : a.slt 256#32 = true := by
    by_contra hc
    rw [Bool.not_eq_true] at hc
    simp [IntOp.cmpi, hc] at h1
  rw [BitVec.sle, decide_eq_true_eq] at e0
  rw [BitVec.slt, decide_eq_true_eq] at e1
  have ht := BitVec.toInt_eq_toNat_cond a
  have h256 : (256#32 : BitVec 32).toInt = 256 := by decide
  have h00 : (0#32 : BitVec 32).toInt = 0 := by decide
  rw [h256] at e1; rw [h00] at e0
  split at ht <;> omega

/-- Under the precondition every label is a graph number. -/
theorem labels_lt {F : FTy → Type} [FloatOps F] (x0 : FVec F Cert.Pre_finite_inputs.S100000x128 .f32) (x1 : IVec Cert.Pre_finite_inputs.S2x1600000 32)
    (x2 : IVec Cert.Pre_finite_inputs.S100000 32) (x3 : FVec F Cert.Pre_finite_inputs.S128x128 .f32)
    (h : Cert.Pre_finite_inputs.fn (F := F) x0 x1 x2 x3 = fun _ => 1#1) (n : Fin 100000) : (x2 (ix1 n)).toNat < 256 := by
  have h0 := congrFun h ix0
  dsimp only [Cert.Pre_finite_inputs.fn] at h0
  have h14 := (IntOp.andi_eq_one.mp h0).2
  have h13 := Host.reduce_andi_all _ _ _ _ ix0 h14 (ix1 n)
  have hh := IntOp.andi_eq_one.mp h13
  exact toNat_lt_of_signed _ hh.1 hh.2

end Cert.PreK

end
-- ==== Proof.HostK.lean ====
/-
  The host stretches of the kernel's program, read as values at the extended reals: what each array a pallas_call is
  entered with holds, as a function of the argument arrays.  The neighbour aggregation and the per-graph counts are the
  same host operations in both programs; they are named here by the reference's stage functions and never opened.
-/
import proofs.«411695_j30116310679887_3_alg».proof.Proof.Gen.KernelIdeal.Frame
import proofs.«411695_j30116310679887_3_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostK

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- No operation of the first stretch writes the buffer `b`. -/
macro "not_written0" : tactic => `(tactic| (
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))
/-- No operation of the second stretch writes the buffer `b`. -/
macro "not_written1" : tactic => `(tactic| (
  refine StableHlo.after_of_forall_not_mem _ _ (List.forall_iff_forall_mem.mp ?_)
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The first pallas_call's entry contents -/

/-- The features as launched. -/
theorem v1_arg0 (c : Dev nD) : V1 m ρ c main_arg0 = m ((c : Thread nD τ).loc main_arg0) := by
  show StableHlo.after hostOps0 (W0 m ρ c) (Proc.devRef .tc main_arg0) = _
  refine Eq.trans ?_ (rfl : W0 m ρ c (Proc.devRef .tc main_arg0) = _)
  not_written0

/-- The aggregated neighbours: the reference's stage of the same name. -/
theorem v1_v13 (c : Dev nD) : V1 m ρ c main_call0_v13
    = Cert.ReferenceIdeal.Read.val_main_v13 (F := Ideal) (m ((c : Thread nD τ).loc main_arg0)) (m ((c : Thread nD τ).loc main_arg1)) := by
  show StableHlo.after hostOps0 (W0 m ρ c) (Proc.devRef .tc main_call0_v13) = _
  after_results
  rfl

/-- The label column: the labels reshaped [100000] → [100000, 1]. -/
theorem v1_v14 (c : Dev nD) : V1 m ρ c main_call0_v14
    = shapeCast S100000x1 (m ((c : Thread nD τ).loc main_arg2)) shapeCasts_S100000_S100000x1 := by
  show StableHlo.after hostOps0 (W0 m ρ c) (Proc.devRef .tc main_call0_v14) = _
  after_results
  rfl

/-- The label of node `n`, read off the column. -/
theorem v1_v14_apply (c : Dev nD) (n : Fin 100000) :
    V1 m ρ c main_call0_v14 (ix2 n 0) = m ((c : Thread nD τ).loc main_arg2) (ix1 n) := by
  rw [v1_v14]
  refine shapeCast_apply _ shapeCasts_S100000_S100000x1 (ix2 n 0) (ix1 n) ?_
  rw [Shape.rowMajor_val_two, Shape.rowMajor_val_one]
  show n.val = n.val * 1 + 0
  omega

/-- The per-graph node counts: the reference's stage of the same name. -/
theorem w1_v18 (c : Dev nD) : W1 m ρ c (Proc.devRef .tc main_call0_v18)
    = Cert.ReferenceIdeal.Read.val_main_v21 (F := Ideal) (m ((c : Thread nD τ).loc main_arg2)) := by
  show StableHlo.after hostOps0 (W0 m ρ c) (Proc.devRef .tc main_call0_v18) = _
  after_results
  rfl

/-! ## The second pallas_call's entry contents -/

/-- The node rows: what the first call left in its first result array. -/
theorem v3_v19_0 (c : Dev nD) : V3 m ρ c main_call0_v19_0 = (dat0 (V1 m ρ) c).arrAt 3 cfg0.N := by
  refine Eq.trans ?_ (W2_arr m ρ c 3)
  show StableHlo.after hostOps1 (W2 m ρ c) (Proc.devRef .tc main_call0_v19_0) = _
  not_written1

/-- The label column is still what the first call was entered with. -/
theorem v3_v14 (c : Dev nD) : V3 m ρ c main_call0_v14 = V1 m ρ c main_call0_v14 := by
  refine Eq.trans ?_ ((W2_arr m ρ c 2).trans (((dat0 (V1 m ρ) c).arrAt_in 2 rfl _).trans (A_eq0 (V1 m ρ) c 2)))
  show StableHlo.after hostOps1 (W2 m ρ c) (Proc.devRef .tc main_call0_v14) = _
  not_written1

/-- The dense matrix as launched. -/
theorem v3_arg3 (c : Dev nD) : V3 m ρ c main_arg3 = m ((c : Thread nD τ).loc main_arg3) := by
  have e1 : W3 m ρ c (Proc.devRef .tc main_arg3) = W2 m ρ c (Proc.devRef .tc main_arg3) := by
    show StableHlo.after hostOps1 (W2 m ρ c) (Proc.devRef .tc main_arg3) = _
    not_written1
  have e2 : W2 m ρ c (Proc.devRef .tc main_arg3) = W1 m ρ c (Proc.devRef .tc main_arg3) := W2_of_ne m ρ c main_arg3 (by decide)
  have e3 : W1 m ρ c (Proc.devRef .tc main_arg3) = W0 m ρ c (Proc.devRef .tc main_arg3) := by
    show StableHlo.after hostOps0 (W0 m ρ c) (Proc.devRef .tc main_arg3) = _
    not_written0
  exact e1.trans (e2.trans (e3.trans rfl))

/-- The two halves of the partial-sums array [2, 256, 128] added: the per-graph sums as the kernel's program forms them. -/
def halves (P : FVec Ideal S2x256x128 .f32) : FVec Ideal S256x128 .f32 :=
  addf
    (shapeCast S256x128 (extractStridedSlice S1x256x128 ![0, 0, 0] P slices_S2x256x128_S1x256x128_0_0_0) shapeCasts_S1x256x128_S256x128)
    (shapeCast S256x128 (extractStridedSlice S1x256x128 ![1, 0, 0] P slices_S2x256x128_S1x256x128_1_0_0) shapeCasts_S1x256x128_S256x128)

/-- Entry (g, k) of the added halves is the sum of the two halves' entries. -/
theorem halves_apply (P : FVec Ideal S2x256x128 .f32) (g : Fin 256) (k : Fin 128) :
    halves P (ix2 g k) = @HAdd.hAdd EReal EReal EReal instHAdd (P (ix3 (0 : Fin 2) g k)) (P (ix3 (1 : Fin 2) g k)) := by
  show FloatOps.addf (F := Ideal) (shapeCast S256x128 _ shapeCasts_S1x256x128_S256x128 (ix2 g k)) (shapeCast S256x128 _ shapeCasts_S1x256x128_S256x128 (ix2 g k)) = _
  rw [Ideal.addf_def, shapeCast_1ab_ab_apply, shapeCast_1ab_ab_apply,
    extractStridedSlice_apply ![0, 0, 0] P slices_S2x256x128_S1x256x128_0_0_0 (ix3 (0 : Fin 1) g k) (ix3 (0 : Fin 2) g k)
      (fun a => match a with
        | ⟨0, _⟩ => rfl
        | ⟨1, _⟩ => by show g.val = 0 + g.val; omega
        | ⟨2, _⟩ => by show k.val = 0 + k.val; omega),
    extractStridedSlice_apply ![1, 0, 0] P slices_S2x256x128_S1x256x128_1_0_0 (ix3 (0 : Fin 1) g k) (ix3 (1 : Fin 2) g k)
      (fun a => match a with
        | ⟨0, _⟩ => rfl
        | ⟨1, _⟩ => by show g.val = 0 + g.val; omega
        | ⟨2, _⟩ => by show k.val = 0 + k.val; omega)]

/-- The per-graph table: the added halves over the counts clipped below at one — the same division, by the same
    denominator array, as the reference's. -/
theorem v3_v28 (c : Dev nD) : V3 m ρ c main_call0_v28
    = Host.divf (F := Ideal) (halves ((dat0 (V1 m ρ) c).arrAt 4 cfg0.N))
        (Cert.ReferenceIdeal.Read.val_main_v24 (F := Ideal) (m ((c : Thread nD τ).loc main_arg2))) := by
  have hc : Cert.ReferenceIdeal.Read.val_main_v24 (F := Ideal) (m ((c : Thread nD τ).loc main_arg2))
      = broadcastInDim S256x128 ![0, 1] bcast_S256x1_S256x128_0_1
        (maximumf (F := Ideal) (W2 m ρ c (Proc.devRef .tc main_call0_v18))
          (broadcastInDim S256x1 ![] bcast_S_S256x1 (constant (F := Ideal) S_ .f32 0x3F800000#32))) := by
    rw [W2_of_ne m ρ c main_call0_v18 (by decide), w1_v18 m ρ c]
    rfl
  rw [hc, ← W2_arr m ρ c 4]
  show StableHlo.after hostOps1 (W2 m ρ c) (Proc.devRef .tc main_call0_v28) = _
  after_results
  rfl

end Cert.KernelIdeal.HostK

end
-- ==== Proof.Spec.lean ====
/-
  The mathematics both programs compute, over plain coordinates.

  A node `n` (100000 of them, 128 features each) carries a graph label `b n`.  The weight `oh (b n) g` is 1 when
  the label is `g` and 0 otherwise.  `psum` adds the weighted rows of a range of nodes, `sums` of all nodes, and
  `final` adds to a node's row the row of the per-graph table its label selects (written as the weighted sum over
  all 256 graphs), multiplies by the dense matrix and clips at zero.
-/
import Idealize.ShloMosaic.PureOps.Ideal
import Idealize.ShloMosaic.PureOps.Ideal.Laws
import Idealize.ShloMosaic.Lib.ValueIdx

noncomputable section

namespace Cert.Spec

open Idealize.ShloMosaic

/-- The weight a node labelled `b` gives graph `g`: 1 on its own graph, 0 on every other. -/
def oh (b : BitVec 32) (g : ℕ) : EReal := if b = BitVec.ofNat 32 g then 1 else 0

/-- The weighted sum of feature `k` over the nodes `lo ≤ n < hi`, for graph `g`. -/
def psum (o : Fin 100000 → Fin 128 → EReal) (b : Fin 100000 → BitVec 32) (lo hi : ℕ) (g : Fin 256) (k : Fin 128) : EReal :=
  ∑ n ∈ Finset.univ.filter (fun n : Fin 100000 => lo ≤ n.val ∧ n.val < hi), oh (b n) g.val * o n k

/-- The weighted sum over all nodes: the per-graph sum of feature `k`. -/
def sums (o : Fin 100000 → Fin 128 → EReal) (b : Fin 100000 → BitVec 32) (g : Fin 256) (k : Fin 128) : EReal :=
  ∑ n : Fin 100000, oh (b n) g.val * o n k

/-- The layer's output at node `n`, column `d`. -/
def final (o : Fin 100000 → Fin 128 → EReal) (b : Fin 100000 → BitVec 32) (vm : Fin 256 → Fin 128 → EReal)
    (w : Fin 128 → Fin 128 → EReal) (n : Fin 100000) (d : Fin 128) : EReal :=
  max (∑ k : Fin 128, (o n k + ∑ g : Fin 256, oh (b n) g.val * vm g k) * w k d) 0

/-- Two adjacent ranges of nodes add up to their union. -/
theorem psum_append (o : Fin 100000 → Fin 128 → EReal) (b : Fin 100000 → BitVec 32) {lo mid hi : ℕ} (h1 : lo ≤ mid) (h2 : mid ≤ hi)
    (g : Fin 256) (k : Fin 128) : psum o b lo mid g k + psum o b mid hi g k = psum o b lo hi g k := by
  unfold psum
  rw [← Finset.sum_union]
  · -- the two ranges together are the long range
    refine Finset.sum_congr ?_ (fun _ _ => rfl)
    ext n
    simp only [Finset.mem_union, Finset.mem_filter, Finset.mem_univ, true_and]
    omega
  · -- and no node lies in both
    rw [Finset.disjoint_left]
    intro n hn hn'
    simp only [Finset.mem_filter, Finset.mem_univ, true_and] at hn hn'
    omega

/-- A block of 2000 consecutive nodes, summed over its rows, is the range sum. -/
theorem psum_block (o : Fin 100000 → Fin 128 → EReal) (b : Fin 100000 → BitVec 32) (t : ℕ) (ht : t < 50) (g : Fin 256) (k : Fin 128) :
    ∑ r : Fin 2000, oh (b ⟨2000 * t + r.val, by omega⟩) g.val * o ⟨2000 * t + r.val, by omega⟩ k
      = psum o b (2000 * t) (2000 * (t + 1)) g k := by
  unfold psum
  -- row `r` of the block is node `2000 * t + r`; a node of the range is row `n - 2000 * t`
  refine Finset.sum_bij' (fun r _ => (⟨2000 * t + r.val, by omega⟩ : Fin 100000))
    (fun n hn => (⟨n.val - 2000 * t, by
      simp only [Finset.mem_filter, Finset.mem_univ, true_and] at hn; omega⟩ : Fin 2000)) ?_ ?_ ?_ ?_ ?_
  · intro r _
    simp only [Finset.mem_filter, Finset.mem_univ, true_and]
    omega
  · intro n _
    exact Finset.mem_univ _
  · intro r _
    apply Fin.ext
    simp only []
    omega
  · intro n hn
    simp only [Finset.mem_filter, Finset.mem_univ, true_and] at hn
    apply Fin.ext
    simp only []
    omega
  · intro r _
    rfl

/-- The two halves of the node range add up to the whole. -/
theorem psum_halves (o : Fin 100000 → Fin 128 → EReal) (b : Fin 100000 → BitVec 32) (g : Fin 256) (k : Fin 128) :
    psum o b (50000 * 0) (50000 * (0 + 1)) g k + psum o b (50000 * 1) (50000 * (1 + 1)) g k = sums o b g k := by
  show psum o b 0 50000 g k + psum o b 50000 100000 g k = sums o b g k
  rw [psum_append o b (by omega) (by omega)]
  -- every node lies in the range from 0 to 100000
  unfold psum sums
  rw [Finset.filter_true_of_mem]
  intro n _
  exact ⟨Nat.zero_le _, n.isLt⟩

/-- The weighted sum over all graphs of a table's rows picks the row of the node's own label, when the label is a graph. -/
theorem oh_sum (b : BitVec 32) (hb : b.toNat < 256) (v : Fin 256 → EReal) :
    ∑ g : Fin 256, oh b g.val * v g = v ⟨b.toNat, hb⟩ := by
  rw [Finset.sum_eq_single (⟨b.toNat, hb⟩ : Fin 256)]
  · -- the label's own graph has weight 1
    have h : b = BitVec.ofNat 32 b.toNat := by
      apply BitVec.eq_of_toNat_eq
      rw [BitVec.toNat_ofNat]
      exact (Nat.mod_eq_of_lt b.isLt).symm
    simp only [oh]
    rw [if_pos h, one_mul]
  · -- every other graph has weight 0
    intro g _ hg
    have h : ¬ b = BitVec.ofNat 32 g.val := by
      intro h
      apply hg
      apply Fin.ext
      have h' := congrArg BitVec.toNat h
      rw [BitVec.toNat_ofNat] at h'
      have := g.isLt
      simp only []
      omega
    simp only [oh]
    rw [if_neg h, zero_mul]
  · intro h
    exact absurd (Finset.mem_univ _) h

/-- The weight as the kernel computes it: the comparison bit, widened, read as a signed integer. -/
theorem oh_eq_sitofp (b : BitVec 32) (g : ℕ) :
    (((((IntOp.cmpi .eq b (BitVec.ofNat 32 g)).setWidth 32).toInt : ℝ)) : EReal) = oh b g := by
  unfold oh IntOp.cmpi
  by_cases h : b = BitVec.ofNat 32 g
  · have hb : (b == BitVec.ofNat 32 g) = true := by rw [h]; exact beq_self_eq_true _
    have h1 : ((BitVec.ofBool true).setWidth 32).toInt = 1 := by decide
    rw [if_pos h]
    simp only [hb, h1]
    norm_num
  · have hb : (b == BitVec.ofNat 32 g) = false := by
      rw [beq_eq_false_iff_ne]; exact h
    have h0 : ((BitVec.ofBool false).setWidth 32).toInt = 0 := by decide
    rw [if_neg h]
    simp only [hb, h0]
    norm_num

end Cert.Spec

end
-- ==== Proof.R0.lean ====
/-
  The first pallas_call, read as values: its first result array is the node rows `H + agg`; its second holds, for each
  half of the node range, the per-graph sums of that half's rows, accumulated block by block over the grid.
-/
import proofs.«411695_j30116310679887_3_alg».proof.Proof.Gen.KernelIdeal.Frame
import proofs.«411695_j30116310679887_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The node rows the call forms: the features plus the aggregated neighbours. -/
abbrev rows (c : Dev nD) : Fin 100000 → Fin 128 → EReal := fun n k =>
  @HAdd.hAdd EReal EReal EReal instHAdd (V c main_arg0 (ix2 n k)) (V c main_call0_v13 (ix2 n k))
/-- The node labels (a column). -/
abbrev labels (c : Dev nD) : Fin 100000 → BitVec 32 := fun n => V c main_call0_v14 (ix2 n 0)

/-- The block offsets of a store that covers a whole block are all zero. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## What the body leaves in each output's buffer, per control case -/

section Pieces
variable {F : FTy → Type} [FloatOps F]

/-- The first point of a half: the row block is the sum of the two input blocks. -/
private theorem out_A_3 (c : Dev nD) (i : grid0.Coords) (a2 : Memref sig .tc .vmem S2000x128 .f32) (h2 : a2.IsWhole)
    (a3 : Memref sig .tc .vmem S2000x128 .f32) (h3 : a3.IsWhole) (a4 : Memref sig .tc .vmem S2000x1 .i32) (h4 : a4.IsWhole)
    (a5 : Memref sig .tc .vmem S2000x128 .bf16) (h5 : a5.IsWhole) (a6 : Memref sig .tc .vmem S1x256x128 .f32) (h6 : a6.IsWhole)
    (hc : cond0_0 i) (x0 x1 : Vec F S2000x128 .f32) (x2 : Vec F S2000x1 .i32) :
    out0_A_3 c i a2 h2 a3 h3 a4 h4 a5 h5 a6 h6 hc x0 x1 x2 = k0_pay2 x0 x1 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S2000x128) hz2]

/-- Every later point: the same. -/
private theorem out_B_3 (c : Dev nD) (i : grid0.Coords) (a2 : Memref sig .tc .vmem S2000x128 .f32) (h2 : a2.IsWhole)
    (a3 : Memref sig .tc .vmem S2000x128 .f32) (h3 : a3.IsWhole) (a4 : Memref sig .tc .vmem S2000x1 .i32) (h4 : a4.IsWhole)
    (a5 : Memref sig .tc .vmem S2000x128 .bf16) (h5 : a5.IsWhole) (a6 : Memref sig .tc .vmem S1x256x128 .f32) (h6 : a6.IsWhole)
    (hc : ¬cond0_0 i) (x0 x1 : Vec F S2000x128 .f32) (x2 : Vec F S2000x1 .i32) (acc : Vec F S1x256x128 .f32) :
    out0_B_3 c i a2 h2 a3 h3 a4 h4 a5 h5 a6 h6 hc x0 x1 x2 acc = k0_pay2 x0 x1 := by
  unfold out0_B_3
  rw [View.read_writes_eq_canon _ _ _ (cover0_B_3 c i a2 h2 a3 h3 a4 h4 a5 h5 a6 h6 hc x0 x1 x2 acc)]
  unfold kernelRun0_B
  dsimp only
  sl_unfold_words
  rw [View.canon_unit_zero hz2]
  simp only [View.readAt_eq_ld, h2.read_unread, h3.read_unread, View.ld_unit_zero (S := S2000x128) hz2]

/-- The first point of a half: the accumulator is zeroed, read back, and the block's per-graph sums added. -/
private theorem out_A_4 (c : Dev nD) (i : grid0.Coords) (a2 : Memref sig .tc .vmem S2000x128 .f32) (h2 : a2.IsWhole)
    (a3 : Memref sig .tc .vmem S2000x128 .f32) (h3 : a3.IsWhole) (a4 : Memref sig .tc .vmem S2000x1 .i32) (h4 : a4.IsWhole)
    (a5 : Memref sig .tc .vmem S2000x128 .bf16) (h5 : a5.IsWhole) (a6 : Memref sig .tc .vmem S1x256x128 .f32) (h6 : a6.IsWhole)
    (hc : cond0_0 i) (x0 x1 : Vec F S2000x128 .f32) (x2 : Vec F S2000x1 .i32) :
    out0_A_4 c i a2 h2 a3 h3 a4 h4 a5 h5 a6 h6 hc x0 x1 x2 = k0_pay3 x0 x1 x2 (k0_pay1 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x256x128) hz3, View.readCov_unit_zero (S := S1x256x128) _ hz3]
  simp only [View.readAt_eq_ld, h2.read_unread, h3.read_unread, h4.read_unread, View.ld_unit_zero (S := S2000x128) hz2,
    View.ld_unit_zero (S := S2000x1) hz2]

/-- Every later point: the block's per-graph sums added to what the point before left. -/
private theorem out_B_4 (c : Dev nD) (i : grid0.Coords) (a2 : Memref sig .tc .vmem S2000x128 .f32) (h2 : a2.IsWhole)
    (a3 : Memref sig .tc .vmem S2000x128 .f32) (h3 : a3.IsWhole) (a4 : Memref sig .tc .vmem S2000x1 .i32) (h4 : a4.IsWhole)
    (a5 : Memref sig .tc .vmem S2000x128 .bf16) (h5 : a5.IsWhole) (a6 : Memref sig .tc .vmem S1x256x128 .f32) (h6 : a6.IsWhole)
    (hc : ¬cond0_0 i) (x0 x1 : Vec F S2000x128 .f32) (x2 : Vec F S2000x1 .i32) (acc : Vec F S1x256x128 .f32) :
    out0_B_4 c i a2 h2 a3 h3 a4 h4 a5 h5 a6 h6 hc x0 x1 x2 acc = k0_pay3 x0 x1 x2 acc := by
  unfold out0_B_4
  rw [View.read_writes_eq_canon _ _ _ (cover0_B_4 c i a2 h2 a3 h3 a4 h4 a5 h5 a6 h6 hc x0 x1 x2 acc)]
  unfold kernelRun0_B
  dsimp only
  sl_unfold_words
  rw [View.canon_unit_zero hz3]
  simp only [View.readAt_eq_ld, h2.read_unread, h3.read_unread, h4.read_unread, h6.read_unread,
    View.ld_unit_zero (S := S2000x128) hz2, View.ld_unit_zero (S := S2000x1) hz2, View.ld_unit_zero (S := S1x256x128) hz3]

end Pieces

/-! ## The payloads at an index, at the ideal values -/

/-- The zero block reads zero. -/
private theorem pay1_apply (u : Fin 1) (g : Fin 256) (k : Fin 128) : k0_pay1 (F := Ideal) (ix3 u g k) = (0 : EReal) := by
  unfold k0_pay1
  refine (shapeCast_ab_1ab_apply _ _ u g k).trans ?_
  exact Ideal.ofBits_zero_f32

/-- The row block reads the sum of the two input blocks (the change of format is the identity on extended reals). -/
private theorem pay2_apply (x0 x1 : Vec Ideal S2000x128 .f32) (r : Fin 2000) (k : Fin 128) :
    k0_pay2 (F := Ideal) x0 x1 (ix2 r k) = @HAdd.hAdd EReal EReal EReal instHAdd (x0 (ix2 r k)) (x1 (ix2 r k)) := by
  unfold k0_pay2
  show @HAdd.hAdd EReal EReal EReal instHAdd (x0 (ix2 r k)) (shapeCast S2000x128 x1 shapeCasts_S2000x128_S2000x128 (ix2 r k)) = _
  rw [shapeCast_self]

/-- The one-hot matrix of a block of labels: row `r`, column `g` is 1 when row `r`'s label is `g`. -/
private abbrev onehot (x2 : Vec Ideal S2000x1 .i32) : FVec Ideal S2000x256 .bf16 :=
  truncf .bf16 (sitofp .f32 (extui 32 (cmpi .eq
    (broadcastTo S2000x256 (shapeCast S2000x1 x2 shapeCasts_S2000x1_S2000x1) broadcasts_S2000x1_S2000x256)
    (broadcastTo S2000x256 (iota .tc S1x256 32 [1] iota_S1x256_d1_w32) broadcasts_S1x256_S2000x256)) natLt_1_32)) bitsLt_bf16_f32

private theorem onehot_apply (x2 : Vec Ideal S2000x1 .i32) (r : Fin 2000) (g : Fin 256) :
    onehot x2 (ix2 r g) = Spec.oh (x2 (ix2 r (0 : Fin 1))) g.val := by
  have e1 : broadcastTo S2000x256 (shapeCast S2000x1 x2 shapeCasts_S2000x1_S2000x1) broadcasts_S2000x1_S2000x256 (ix2 r g)
      = x2 (ix2 r (0 : Fin 1)) := by
    refine (broadcastTo_apply _ _ (ix2 r g) (ix2 r (0 : Fin 1)) (fun a => ?_)).trans ?_
    · match a with
      | ⟨0, _⟩ => rfl
      | ⟨1, _⟩ => rfl
    · rw [shapeCast_self]
  have e2 : broadcastTo S2000x256 (iota .tc S1x256 32 [1] iota_S1x256_d1_w32) broadcasts_S1x256_S2000x256 (ix2 r g)
      = BitVec.ofNat 32 g.val := by
    refine (broadcastTo_1b_ab_apply _ _ r g).trans ?_
    exact iota_single_apply .tc S1x256 32 1 _ (ix2 (0 : Fin 1) g)
  refine Eq.trans ?_ (Spec.oh_eq_sitofp (x2 (ix2 r (0 : Fin 1))) g.val)
  show ((((IntOp.cmpi .eq
      (broadcastTo S2000x256 (shapeCast S2000x1 x2 shapeCasts_S2000x1_S2000x1) broadcasts_S2000x1_S2000x256 (ix2 r g))
      (broadcastTo S2000x256 (iota .tc S1x256 32 [1] iota_S1x256_d1_w32) broadcasts_S1x256_S2000x256 (ix2 r g))).setWidth 32).toInt : ℝ) : EReal) = _
  rw [e1, e2]

/-! The product contracts the row axis of both operands: the operand indices at output `(g, k)` and row `q`. -/
private theorem lhs_dot0_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
private theorem lhs_dot0_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide), dif_pos (show (1 : Fin S2000x256.rank) ∈ dot_S2000x256_S2000x128_S256x128_0_0_1_1_n_n.lhsNonContracting by decide)]
  rfl
private theorem rhs_dot0_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
private theorem rhs_dot0_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide), dif_pos (show (1 : Fin S2000x128.rank) ∈ dot_S2000x256_S2000x128_S256x128_0_0_1_1_n_n.rhsNonContracting by decide)]
  rfl

/-- The product into a zero accumulator, at `(g, k)`: the sum over the block's rows. -/
private theorem dot0_apply (L : FVec Ideal S2000x256 .bf16) (R : FVec Ideal S2000x128 .bf16) (g : Fin 256) (k : Fin 128) :
    matmul dot_S2000x256_S2000x128_S256x128_0_0_1_1_n_n none L R (constant S256x128 .f32 0x00000000#32) (ix2 g k)
      = ∑ r : Fin 2000, L (ix2 r g) * R (ix2 r k) := by
  simp only [matmul]
  rw [Ideal.matmul_constant_zero_apply, ← Equiv.sum_comp (ValueIdx.contrEquiv1 dot_S2000x256_S2000x128_S256x128_0_0_1_1_n_n 2000 rfl rfl).symm]
  refine Finset.sum_congr rfl fun r _ => ?_
  have hk := ValueIdx.contrEquiv1_symm_val dot_S2000x256_S2000x128_S256x128_0_0_1_1_n_n 2000 rfl rfl r
  have el : dot_S2000x256_S2000x128_S256x128_0_0_1_1_n_n.lhsIdx (ix2 g k) ((ValueIdx.contrEquiv1 dot_S2000x256_S2000x128_S256x128_0_0_1_1_n_n 2000 rfl rfl).symm r) = ix2 r g := funext fun a => Fin.ext (by
    match a with
    | ⟨0, _⟩ => exact (lhs_dot0_0 _ _).trans hk
    | ⟨1, _⟩ => exact lhs_dot0_1 _ _)
  have er : dot_S2000x256_S2000x128_S256x128_0_0_1_1_n_n.rhsIdx (ix2 g k) ((ValueIdx.contrEquiv1 dot_S2000x256_S2000x128_S256x128_0_0_1_1_n_n 2000 rfl rfl).symm r) = ix2 r k := funext fun a => Fin.ext (by
    match a with
    | ⟨0, _⟩ => exact (rhs_dot0_0 _ _).trans hk
    | ⟨1, _⟩ => exact rhs_dot0_1 _ _)
  rw [el, er]

/-- The accumulator block after a point, at graph `g` and feature `k`: what it held plus the block's weighted rows. -/
private theorem pay3_apply (x0 x1 : Vec Ideal S2000x128 .f32) (x2 : Vec Ideal S2000x1 .i32) (acc : Vec Ideal S1x256x128 .f32)
    (u : Fin 1) (g : Fin 256) (k : Fin 128) :
    k0_pay3 (F := Ideal) x0 x1 x2 acc (ix3 u g k)
      = @HAdd.hAdd EReal EReal EReal instHAdd (acc (ix3 (0 : Fin 1) g k))
          (∑ r : Fin 2000, Spec.oh (x2 (ix2 r (0 : Fin 1))) g.val
            * @HAdd.hAdd EReal EReal EReal instHAdd (x0 (ix2 r k)) (x1 (ix2 r k))) := by
  unfold k0_pay3
  refine (shapeCast_ab_1ab_apply _ _ u g k).trans ?_
  refine congrArg₂ (@HAdd.hAdd EReal EReal EReal instHAdd) ?_ ?_
  · exact shapeCast_1ab_ab_apply acc _ g k
  · refine (dot0_apply (onehot x2) (k0_pay2 (F := Ideal) x0 x1) g k).trans ?_
    refine Finset.sum_congr rfl fun r _ => ?_
    exact congrArg₂ (@HMul.hMul EReal EReal EReal instHMul) (onehot_apply x2 r g) (pay2_apply x0 x1 r k)

/-! ## The input blocks, read off the arrays the call finds -/

/-- The three input blocks at a point, at their literal shapes. -/
private abbrev xb0 (c : Dev nD) (t : Fin cfg0.N) : Vec Ideal S2000x128 .f32 := iblk0 V c 0 t
private abbrev xb1 (c : Dev nD) (t : Fin cfg0.N) : Vec Ideal S2000x128 .f32 := iblk0 V c 1 t
private abbrev xb2 (c : Dev nD) (t : Fin cfg0.N) : Vec Ideal S2000x1 .i32 := iblk0 V c 2 t

/-- The block indices, decided over the grid: the three inputs and the row output move with the point along the
    node axis; the accumulator's block is the half the point lies in. -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = t.val / 25 ∧ win0_4.index t (1 : Fin 3) = 0 ∧ win0_4.index t (2 : Fin 3) = 0) :=
  (by decide +kernel : ∀ t : Fin grid0.N, _)

private theorem N50 : cfg0.N = 50 := N_0

/-- Row `r` of the feature block at point `t` is node `2000 t + r`. -/
private theorem xb0_apply (c : Dev nD) (t : Fin cfg0.N) (r : Fin 2000) (k : Fin 128) (hb : 2000 * t.val + r.val < 100000) :
    xb0 V c t (ix2 r k) = V c main_arg0 (ix2 (⟨2000 * t.val + r.val, hb⟩ : Fin 100000) k) := by
  obtain ⟨⟨e0, e1⟩, -⟩ := idx_facts t
  show iblk0 V c 0 t (ix2 r k) = _
  unfold iblk0
  rw [View.read_apply]
  show V c main_arg0 _ = V c main_arg0 _
  congr 1
  funext a
  apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

/-- The same for the aggregated block. -/
private theorem xb1_apply (c : Dev nD) (t : Fin cfg0.N) (r : Fin 2000) (k : Fin 128) (hb : 2000 * t.val + r.val < 100000) :
    xb1 V c t (ix2 r k) = V c main_call0_v13 (ix2 (⟨2000 * t.val + r.val, hb⟩ : Fin 100000) k) := by
  obtain ⟨-, ⟨e0, e1⟩, -⟩ := idx_facts t
  show iblk0 V c 1 t (ix2 r k) = _
  unfold iblk0
  rw [View.read_apply]
  show V c main_call0_v13 _ = V c main_call0_v13 _
  congr 1
  funext a
  apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

/-- And for the label column. -/
private theorem xb2_apply (c : Dev nD) (t : Fin cfg0.N) (r : Fin 2000) (hb : 2000 * t.val + r.val < 100000) :
    xb2 V c t (ix2 r (0 : Fin 1)) = V c main_call0_v14 (ix2 (⟨2000 * t.val + r.val, hb⟩ : Fin 100000) (0 : Fin 1)) := by
  obtain ⟨-, -, ⟨e0, e1⟩, -⟩ := idx_facts t
  show iblk0 V c 2 t (ix2 r (0 : Fin 1)) = _
  unfold iblk0
  rw [View.read_apply]
  show V c main_call0_v14 _ = V c main_call0_v14 _
  congr 1
  funext a
  apply Fin.ext
  match a with
  | ⟨0, _⟩ => show win0_2.index t (0 : Fin 2) * 2000 + 1 * r.val = 2000 * t.val + r.val; rw [e0]; omega
  | ⟨1, _⟩ => show win0_2.index t (1 : Fin 2) * 1 + 1 * (0 : Fin 1).val = (0 : Fin 1).val; rw [e1]; rfl

/-! ## What the two output buffers hold after each point -/

/-- After point `t` the row buffer holds the rows of the point's 2000 nodes. -/
private theorem inv3 (c : Dev nD) (t : Fin cfg0.N) (r : Fin 2000) (k : Fin 128) (hb : 2000 * t.val + r.val < 100000) :
    (outsAt0 V c t.val t.isLt).1 (ix2 r k) = rows V c (⟨2000 * t.val + r.val, hb⟩ : Fin 100000) k := by
  by_cases h0 : t.val % 25 = 0
  · rw [outsAt0_A V c t h0]
    dsimp only
    refine (congrFun (out_A_3 (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (xb0 V c t) (xb1 V c t) (xb2 V c t)) (ix2 r k)).trans ?_
    refine (pay2_apply (xb0 V c t) (xb1 V c t) r k).trans ?_
    rw [xb0_apply V c t r k hb, xb1_apply V c t r k hb]
  · rw [outsAt0_B V c t h0]
    dsimp only
    refine (congrFun (out_B_3 (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (xb0 V c t) (xb1 V c t) (xb2 V c t)
      (outsAt0 V c (t.val - 1) (Nat.lt_of_le_of_lt (Nat.sub_le _ _) t.isLt)).2) (ix2 r k)).trans ?_
    refine (pay2_apply (xb0 V c t) (xb1 V c t) r k).trans ?_
    rw [xb0_apply V c t r k hb, xb1_apply V c t r k hb]

/-- The rows of the block at point `t`, weighted by graph `g` and summed, are the range sum over the point's nodes. -/
private theorem block_sum (c : Dev nD) (t : Fin cfg0.N) (g : Fin 256) (k : Fin 128) :
    (∑ r : Fin 2000, Spec.oh (xb2 V c t (ix2 r (0 : Fin 1))) g.val
        * @HAdd.hAdd EReal EReal EReal instHAdd (xb0 V c t (ix2 r k)) (xb1 V c t (ix2 r k)))
      = Spec.psum (rows V c) (labels V c) (2000 * t.val) (2000 * (t.val + 1)) g k := by
  have hN : t.val < 50 := lt_of_lt_of_eq t.isLt N50
  refine Eq.trans ?_ (Spec.psum_block (rows V c) (labels V c) t.val hN g k)
  refine Finset.sum_congr rfl fun r _ => ?_
  have hb : 2000 * t.val + r.val < 100000 := by have := r.isLt; omega
  rw [xb2_apply V c t r hb, xb0_apply V c t r k hb, xb1_apply V c t r k hb]

/-- At the first point of a half the accumulator holds just that point's range sum. -/
private theorem inv4_A (c : Dev nD) (t : Fin cfg0.N) (h0 : t.val % 25 = 0) (g : Fin 256) (k : Fin 128) :
    (outsAt0 V c t.val t.isLt).2 (ix3 (0 : Fin 1) g k)
      = Spec.psum (rows V c) (labels V c) (2000 * t.val) (2000 * (t.val + 1)) g k := by
  rw [outsAt0_A V c t h0]
  dsimp only
  refine (congrFun (out_A_4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xb0 V c t) (xb1 V c t) (xb2 V c t)) (ix3 (0 : Fin 1) g k)).trans ?_
  refine (pay3_apply (xb0 V c t) (xb1 V c t) (xb2 V c t) (k0_pay1 (F := Ideal)) 0 g k).trans ?_
  rw [pay1_apply, zero_add, block_sum V c t g k]

/-- At every other point it holds what the point before left plus the point's range sum. -/
private theorem inv4_B (c : Dev nD) (t : Fin cfg0.N) (h0 : ¬t.val % 25 = 0) (g : Fin 256) (k : Fin 128) (hp : t.val - 1 < cfg0.N) :
    (outsAt0 V c t.val t.isLt).2 (ix3 (0 : Fin 1) g k)
      = @HAdd.hAdd EReal EReal EReal instHAdd ((outsAt0 V c (t.val - 1) hp).2 (ix3 (0 : Fin 1) g k))
          (Spec.psum (rows V c) (labels V c) (2000 * t.val) (2000 * (t.val + 1)) g k) := by
  rw [outsAt0_B V c t h0]
  dsimp only
  refine (congrFun (out_B_4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xb0 V c t) (xb1 V c t) (xb2 V c t)
    (outsAt0 V c (t.val - 1) (Nat.lt_of_le_of_lt (Nat.sub_le _ _) t.isLt)).2) (ix3 (0 : Fin 1) g k)).trans ?_
  refine (pay3_apply (xb0 V c t) (xb1 V c t) (xb2 V c t)
    (outsAt0 V c (t.val - 1) (Nat.lt_of_le_of_lt (Nat.sub_le _ _) t.isLt)).2 0 g k).trans ?_
  rw [block_sum V c t g k]

/-- So after point `n` the accumulator holds the range sum from the start of `n`'s half up to and including `n`'s
    nodes: by induction on the point. -/
private theorem inv4 (c : Dev nD) (g : Fin 256) (k : Fin 128) : ∀ (n : ℕ) (hn : n < cfg0.N),
    (outsAt0 V c n hn).2 (ix3 (0 : Fin 1) g k)
      = Spec.psum (rows V c) (labels V c) (2000 * (n - n % 25)) (2000 * (n + 1)) g k := by
  intro n
  induction n with
  | zero =>
    intro hn
    exact inv4_A V c ⟨0, hn⟩ rfl g k
  | succ m ih =>
    intro hn
    have hN : m + 1 < 50 := lt_of_lt_of_eq hn N50
    by_cases h0 : (m + 1) % 25 = 0
    · refine (inv4_A V c ⟨m + 1, hn⟩ h0 g k).trans ?_
      show Spec.psum (rows V c) (labels V c) (2000 * (m + 1)) (2000 * (m + 1 + 1)) g k = _
      rw [h0, Nat.sub_zero]
    · have hm : m < cfg0.N := by rw [N50]; omega
      refine (inv4_B V c ⟨m + 1, hn⟩ h0 g k hm).trans ?_
      show @HAdd.hAdd EReal EReal EReal instHAdd ((outsAt0 V c m hm).2 (ix3 (0 : Fin 1) g k))
        (Spec.psum (rows V c) (labels V c) (2000 * (m + 1)) (2000 * (m + 1 + 1)) g k) = _
      rw [ih hm, Spec.psum_append (rows V c) (labels V c) (by omega) (by omega)]
      have e : m + 1 - (m + 1) % 25 = m - m % 25 := by omega
      rw [e]

/-! ## The two result arrays after the call -/

/-- The first result array as one function of its index: the node rows. -/
private abbrev G3 (c : Dev nD) : Vec Ideal S100000x128 .bf16 :=
  fun i => rows V c (⟨(i 0).val, idx2_lt0 i⟩ : Fin 100000) (⟨(i 1).val, idx2_lt1 i⟩ : Fin 128)

/-- What point `t` writes back of the row buffer is block `t` of that function. -/
private theorem flushed3_eq (c : Dev nD) (t : Fin cfg0.N) :
    (dat0 V c).flushed 3 t = ((cfg0.win 3).blk t).view.read (Elt Ideal) (G3 V c) := by
  obtain ⟨-, -, -, ⟨e0, e1⟩, -⟩ := idx_facts t
  have hN : t.val < 50 := lt_of_lt_of_eq t.isLt N50
  show (cfg0.win 3).cut (grid0.coords t) ((dat0 V c).after 3 t) = _
  rw [after0_3]
  funext j
  obtain ⟨r, k, rfl⟩ : ∃ (r : Fin 2000) (k : Fin 128), j = ix2 r k := ⟨j 0, j 1, eq_ix2 j⟩
  have hb : 2000 * t.val + r.val < 100000 := by have := r.isLt; omega
  rw [View.read_apply]
  show (outsAt0 V c t.val t.isLt).1 (ix2 r k) = G3 V c (((cfg0.win 3).blk t).view.emb (ix2 r k))
  have he : ((cfg0.win 3).blk t).view.emb (ix2 r k) = ix2 (⟨2000 * t.val + r.val, hb⟩ : Fin 100000) k := by
    funext a; apply Fin.ext
    match a with
    | ⟨0, _⟩ => show win0_3.index t (0 : Fin 2) * 2000 + 1 * r.val = 2000 * t.val + r.val; rw [e0]; omega
    | ⟨1, _⟩ => show win0_3.index t (1 : Fin 2) * 128 + 1 * k.val = k.val; rw [e1]; omega
  rw [he]
  exact inv3 V c t r k hb

/-- An index of the first result array lies in point `t`'s block when each coordinate lies in the block's range. -/
private theorem mem_blk3 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_call0_v19_0).slice (win0_3.rect t)).set ↔ _
  rw [View.set_slice_whole, Rect.mem_set_unit]
  exact Iff.rfl

/-- Node `n` lies in the block of point `n / 2000`. -/
private theorem cover3 (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  have hq : (i 0).val / 2000 < cfg0.N := by rw [N50]; omega
  refine ⟨⟨(i 0).val / 2000, hq⟩, flush0_3 _, ?_⟩
  rw [mem_blk3]
  obtain ⟨-, -, -, ⟨e0, e1⟩, -⟩ := idx_facts ⟨(i 0).val / 2000, hq⟩
  have e0' : win0_3.index ⟨(i 0).val / 2000, hq⟩ (0 : Fin 2) = (i 0).val / 2000 := e0
  intro a
  match a with
  | ⟨0, _⟩ =>
    show win0_3.index ⟨(i 0).val / 2000, hq⟩ (0 : Fin 2) * 2000 ≤ (i 0).val
      ∧ (i 0).val < win0_3.index ⟨(i 0).val / 2000, hq⟩ (0 : Fin 2) * 2000 + 2000
    rw [e0']; omega
  | ⟨1, _⟩ =>
    show win0_3.index ⟨(i 0).val / 2000, hq⟩ (1 : Fin 2) * 128 ≤ (i 1).val
      ∧ (i 1).val < win0_3.index ⟨(i 0).val / 2000, hq⟩ (1 : Fin 2) * 128 + 128
    rw [e1]; omega

/-- The first result array after the call: the node rows. -/
theorem arr3 (c : Dev nD) (n : Fin 100000) (k : Fin 128) :
    (dat0 V c).arrAt 3 cfg0.N (ix2 n k) = rows V c n k :=
  congrFun ((dat0 V c).arrAt_eq_of_cover 3 (G3 V c) (fun t _ => flushed3_eq V c t) cover3) (ix2 n k)

/-! The second result array. Its contents are stated first for ANY function `P` of the half, the graph and the feature
    that the accumulator is known to hold at the last point of each half; the range sums are put in at the end. -/

/-- The second result array as one function of its index. -/
private abbrev G4 (P : ℕ → Fin 256 → Fin 128 → EReal) : Vec Ideal S2x256x128 .f32 :=
  fun i => P (i 0).val (⟨(i 1).val, (i 1).isLt⟩ : Fin 256) (⟨(i 2).val, (i 2).isLt⟩ : Fin 128)

/-- What the last point of a half writes back of the accumulator is that half's block of the function. -/
private theorem flushed4_eq (P : ℕ → Fin 256 → Fin 128 → EReal) (c : Dev nD)
    (hP : ∀ t : Fin cfg0.N, t.val % 25 = 24 → ∀ (g : Fin 256) (k : Fin 128),
      (outsAt0 V c t.val t.isLt).2 (ix3 (0 : Fin 1) g k) = P (t.val / 25) g k)
    (t : Fin cfg0.N) (hf : (cfg0.win 4).flush t = true) :
    (dat0 V c).flushed 4 t = ((cfg0.win 4).blk t).view.read (Elt Ideal) (G4 P) := by
  have h24 : t.val % 25 = 24 := (flush0_4 t).mp hf
  have hN : t.val < 50 := lt_of_lt_of_eq t.isLt N50
  obtain ⟨-, -, -, -, ⟨e0, e1, e2⟩⟩ := idx_facts t
  show (cfg0.win 4).cut (grid0.coords t) ((dat0 V c).after 4 t) = _
  rw [after0_4]
  funext j
  obtain ⟨u, g, k, rfl⟩ : ∃ (u : Fin 1) (g : Fin 256) (k : Fin 128), j = ix3 u g k := ⟨j 0, j 1, j 2, eq_ix3 j⟩
  obtain rfl : u = 0 := Subsingleton.elim _ _
  have hh : t.val / 25 < 2 := by omega
  rw [View.read_apply]
  show (outsAt0 V c t.val t.isLt).2 (ix3 (0 : Fin 1) g k) = G4 P (((cfg0.win 4).blk t).view.emb (ix3 (0 : Fin 1) g k))
  have he : ((cfg0.win 4).blk t).view.emb (ix3 (0 : Fin 1) g k) = ix3 (⟨t.val / 25, hh⟩ : Fin 2) g k := by
    funext a; apply Fin.ext
    match a with
    | ⟨0, _⟩ => show win0_4.index t (0 : Fin 3) * 1 + 1 * (0 : Fin 1).val = t.val / 25; rw [e0]; show t.val / 25 * 1 + 1 * 0 = t.val / 25; omega
    | ⟨1, _⟩ => show win0_4.index t (1 : Fin 3) * 256 + 1 * g.val = g.val; rw [e1]; omega
    | ⟨2, _⟩ => show win0_4.index t (2 : Fin 3) * 128 + 1 * k.val = k.val; rw [e2]; omega
  rw [he]
  exact hP t h24 g k

/-- An index of the second result array lies in point `t`'s block when each coordinate lies in the block's range. -/
private theorem mem_blk4 (t : Fin cfg0.N) (i : S2x256x128.Idx) :
    i ∈ ((cfg0.win 4).blk t).view.set ↔ ∀ a : Fin 3, win0_4.index t a * S1x256x128.size a ≤ (i a).val
      ∧ (i a).val < win0_4.index t a * S1x256x128.size a + S1x256x128.size a := by
  show i ∈ ((View.whole main_call0_v19_1).slice (win0_4.rect t)).set ↔ _
  rw [View.set_slice_whole, Rect.mem_set_unit]
  exact Iff.rfl

/-- Half `h` is written back by the last point of that half, point `25 h + 24`. -/
private theorem cover4 (i : S2x256x128.Idx) :
    ∃ t : Fin cfg0.N, (cfg0.win 4).flush t = true ∧ i ∈ ((cfg0.win 4).blk t).view.set := by
  have h0 : (i 0).val < 2 := (i 0).isLt
  have h1 : (i 1).val < 256 := (i 1).isLt
  have h2 : (i 2).val < 128 := (i 2).isLt
  have hq : 25 * (i 0).val + 24 < cfg0.N := by rw [N50]; omega
  refine ⟨⟨25 * (i 0).val + 24, hq⟩, (flush0_4 _).mpr (by show (25 * (i 0).val + 24) % 25 = 24; omega), ?_⟩
  rw [mem_blk4]
  obtain ⟨-, -, -, -, ⟨e0, e1, e2⟩⟩ := idx_facts ⟨25 * (i 0).val + 24, hq⟩
  have e0' : win0_4.index ⟨25 * (i 0).val + 24, hq⟩ (0 : Fin 3) = (25 * (i 0).val + 24) / 25 := e0
  intro a
  match a with
  | ⟨0, _⟩ =>
    show win0_4.index ⟨25 * (i 0).val + 24, hq⟩ (0 : Fin 3) * 1 ≤ (i 0).val
      ∧ (i 0).val < win0_4.index ⟨25 * (i 0).val + 24, hq⟩ (0 : Fin 3) * 1 + 1
    rw [e0']; omega
  | ⟨1, _⟩ =>
    show win0_4.index ⟨25 * (i 0).val + 24, hq⟩ (1 : Fin 3) * 256 ≤ (i 1).val
      ∧ (i 1).val < win0_4.index ⟨25 * (i 0).val + 24, hq⟩ (1 : Fin 3) * 256 + 256
    rw [e1]; omega
  | ⟨2, _⟩ =>
    show win0_4.index ⟨25 * (i 0).val + 24, hq⟩ (2 : Fin 3) * 128 ≤ (i 2).val
      ∧ (i 2).val < win0_4.index ⟨25 * (i 0).val + 24, hq⟩ (2 : Fin 3) * 128 + 128
    rw [e2]; omega

/-- So the second result array ends holding `P` of each half. -/
private theorem arr4_of (P : ℕ → Fin 256 → Fin 128 → EReal) (c : Dev nD)
    (hP : ∀ t : Fin cfg0.N, t.val % 25 = 24 → ∀ (g : Fin 256) (k : Fin 128),
      (outsAt0 V c t.val t.isLt).2 (ix3 (0 : Fin 1) g k) = P (t.val / 25) g k)
    (h : Fin 2) (g : Fin 256) (k : Fin 128) :
    (dat0 V c).arrAt 4 cfg0.N (ix3 h g k) = P h.val g k :=
  congrFun ((dat0 V c).arrAt_eq_of_cover 4 (G4 P) (flushed4_eq V P c hP) cover4) (ix3 h g k)

/-- At the last point of a half the accumulator holds the whole half's range sum. -/
private theorem half_sum (c : Dev nD) (t : Fin cfg0.N) (h24 : t.val % 25 = 24) (g : Fin 256) (k : Fin 128) :
    (outsAt0 V c t.val t.isLt).2 (ix3 (0 : Fin 1) g k)
      = Spec.psum (rows V c) (labels V c) (50000 * (t.val / 25)) (50000 * (t.val / 25 + 1)) g k := by
  have hN : t.val < 50 := lt_of_lt_of_eq t.isLt N50
  rw [inv4 V c g k t.val t.isLt]
  have a1 : 2000 * (t.val - t.val % 25) = 50000 * (t.val / 25) := by omega
  have a2 : 2000 * (t.val + 1) = 50000 * (t.val / 25 + 1) := by omega
  rw [a1, a2]

/-- The second result array after the call: half `h` of it holds the per-graph sums over the nodes of that half. -/
theorem arr4 (c : Dev nD) (h : Fin 2) (g : Fin 256) (k : Fin 128) :
    (dat0 V c).arrAt 4 cfg0.N (ix3 h g k) = Spec.psum (rows V c) (labels V c) (50000 * h.val) (50000 * (h.val + 1)) g k :=
  arr4_of V (fun q g k => Spec.psum (rows V c) (labels V c) (50000 * q) (50000 * (q + 1)) g k) c
    (fun t h24 g k => half_sum V c t h24 g k) h g k

end Cert.KernelIdeal.R0

end
-- ==== Proof.R1.lean ====
/-
  The second pallas_call, read as values: at every node row the block it writes back is the layer's output of that
  row, so the result array it leaves is `Spec.final` of the arrays the call was entered with.
-/
import proofs.«411695_j30116310679887_3_alg».proof.Proof.Gen.KernelIdeal.Frame
import proofs.«411695_j30116310679887_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The node rows the call reads (its first operand). -/
abbrev rows (c : Dev nD) : Fin 100000 → Fin 128 → EReal := fun n k => V c main_call0_v19_0 (ix2 n k)
/-- The node labels (its second operand, a column). -/
abbrev labels (c : Dev nD) : Fin 100000 → BitVec 32 := fun n => V c main_call0_v14 (ix2 n 0)
/-- The per-graph table (its third operand). -/
abbrev table (c : Dev nD) : Fin 256 → Fin 128 → EReal := fun g k => V c main_call0_v28 (ix2 g k)
/-- The dense matrix (its fourth operand). -/
abbrev dense (c : Dev nD) : Fin 128 → Fin 128 → EReal := fun k d => V c main_arg3 (ix2 k d)

/-! ## The two contractions: which entries of the operands meet at an output entry

Both products contract the left operand's columns with the right operand's rows, so the output entry at row `i 0`,
column `i 1` meets, at contraction coordinate `q`, the left entry (`i 0`, `q`) and the right entry (`q`, `i 1`). -/

theorem gsum_lhs_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem gsum_lhs_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem gsum_rhs_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem gsum_rhs_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

theorem dense_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dense_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dense_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dense_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product with the per-graph table, into a zero accumulator, at row `r` and feature `k`: the sum over the 256
    graphs. -/
theorem gsum_apply (a : FVec Ideal S4000x256 .bf16) (b : FVec Ideal S256x128 .bf16) (r : Fin 4000) (k : Fin 128) :
    matmul dot_S4000x256_S256x128_S4000x128_1_0_0_1_n_n none a b (constant (F := Ideal) S4000x128 .f32 0x00000000#32) (ix2 r k)
      = ∑ g : Fin 256, a (ix2 r g) * b (ix2 g k) := by
  simp only [matmul]
  rw [Ideal.matmul_constant_zero_apply, ← Equiv.sum_comp (contrEquiv1 dot_S4000x256_S256x128_S4000x128_1_0_0_1_n_n 256 rfl rfl).symm]
  refine Finset.sum_congr rfl fun g _ => ?_
  have hg := contrEquiv1_symm_val dot_S4000x256_S256x128_S4000x128_1_0_0_1_n_n 256 rfl rfl g
  have el : dot_S4000x256_S256x128_S4000x128_1_0_0_1_n_n.lhsIdx (ix2 r k) ((contrEquiv1 dot_S4000x256_S256x128_S4000x128_1_0_0_1_n_n 256 rfl rfl).symm g) = ix2 r g := funext fun a => Fin.ext (by
    match a with
    | ⟨0, _⟩ => exact gsum_lhs_0 _ _
    | ⟨1, _⟩ => exact (gsum_lhs_1 _ _).trans hg)
  have er : dot_S4000x256_S256x128_S4000x128_1_0_0_1_n_n.rhsIdx (ix2 r k) ((contrEquiv1 dot_S4000x256_S256x128_S4000x128_1_0_0_1_n_n 256 rfl rfl).symm g) = ix2 g k := funext fun a => Fin.ext (by
    match a with
    | ⟨0, _⟩ => exact (gsum_rhs_0 _ _).trans hg
    | ⟨1, _⟩ => exact gsum_rhs_1 _ _)
  rw [el, er]

/-- The product with the dense matrix, into a zero accumulator, at row `r` and column `d`: the sum over the 128
    features. -/
theorem dense_apply (a : FVec Ideal S4000x128 .bf16) (b : FVec Ideal S128x128 .bf16) (r : Fin 4000) (d : Fin 128) :
    matmul dot_S4000x128_S128x128_S4000x128_1_0_0_1_n_n none a b (constant (F := Ideal) S4000x128 .f32 0x00000000#32) (ix2 r d)
      = ∑ k : Fin 128, a (ix2 r k) * b (ix2 k d) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r d) ((contrEquiv1 dot_S4000x128_S128x128_S4000x128_1_0_0_1_n_n 128 rfl rfl).symm k) = ix2 r k := funext fun a => Fin.ext (by
    match a with
    | ⟨0, _⟩ => exact dense_lhs_0 _ _
    | ⟨1, _⟩ => exact (dense_lhs_1 _ _).trans hk)
  have er : dot_S4000x128_S128x128_S4000x128_1_0_0_1_n_n.rhsIdx (ix2 r d) ((contrEquiv1 dot_S4000x128_S128x128_S4000x128_1_0_0_1_n_n 128 rfl rfl).symm k) = ix2 k d := funext fun a => Fin.ext (by
    match a with
    | ⟨0, _⟩ => exact (dense_rhs_0 _ _).trans hk
    | ⟨1, _⟩ => exact dense_rhs_1 _ _)
  rw [el, er]

/-! ## The weight of a node for a graph, as the body computes it -/

/-- The label column spread along the 256 graphs, compared with the row of graph numbers spread along the 4000 nodes,
    widened and read as a number: at node `r` and graph `g` it is the weight `Spec.oh` of the node's label for `g`. -/
theorem weight_apply (x1 : Vec Ideal S4000x1 .i32) (r : Fin 4000) (g : Fin 256) :
    (truncf .bf16 (sitofp (F := Ideal) .f32 (extui 32 (cmpi .eq
        (broadcastTo S4000x256 (shapeCast S4000x1 x1 shapeCasts_S4000x1_S4000x1) broadcasts_S4000x1_S4000x256)
        (broadcastTo S4000x256 (iota .tc S1x256 32 [1] iota_S1x256_d1_w32) broadcasts_S1x256_S4000x256)) natLt_1_32)) bitsLt_bf16_f32
      : FVec Ideal S4000x256 .bf16) (ix2 r g) = Spec.oh (x1 (ix2 r 0)) g.val := by
  -- the label column, spread: node `r`'s label in every column
  have e5 : broadcastTo S4000x256 (shapeCast S4000x1 x1 shapeCasts_S4000x1_S4000x1) broadcasts_S4000x1_S4000x256 (ix2 r g) = x1 (ix2 r 0) := by
    rw [shapeCast_self]
    exact broadcastTo_apply x1 broadcasts_S4000x1_S4000x256 (ix2 r g) (ix2 r 0) (fun a => by
      match a with
      | ⟨0, _⟩ => show r.val = if (4000 : Nat) = 1 then 0 else r.val; rw [if_neg (by decide)]
      | ⟨1, _⟩ => show (0 : Nat) = if (1 : Nat) = 1 then 0 else g.val; rw [if_pos rfl])
  -- the row of graph numbers, spread: `g` in every row
  have e6 : broadcastTo S4000x256 (iota .tc S1x256 32 [1] iota_S1x256_d1_w32) broadcasts_S1x256_S4000x256 (ix2 r g) = BitVec.ofNat 32 g.val := by
    refine (broadcastTo_apply (iota .tc S1x256 32 [1] iota_S1x256_d1_w32) broadcasts_S1x256_S4000x256 (ix2 r g) (ix2 (0 : Fin 1) g) (fun a => by
      match a with
      | ⟨0, _⟩ => show (0 : Nat) = if (1 : Nat) = 1 then 0 else r.val; rw [if_pos rfl]
      | ⟨1, _⟩ => show g.val = if (256 : Nat) = 1 then 0 else g.val; rw [if_neg (by decide)])).trans ?_
    exact iota_single_apply .tc S1x256 32 1 iota_S1x256_d1_w32 (ix2 (0 : Fin 1) g)
  have h : ∀ (a b : BitVec 32), a = x1 (ix2 r 0) → b = BitVec.ofNat 32 g.val →
      ((((IntOp.cmpi .eq a b).setWidth 32).toInt : ℝ) : EReal) = Spec.oh (x1 (ix2 r 0)) g.val := by
    intro a b ha hb
    rw [ha, hb]
    exact Spec.oh_eq_sitofp _ _
  exact h _ _ e5 e6

/-! ## The body's stored value at a row and a column -/

/-- A product into a zero accumulator clipped at zero, at row `r` and column `d`. -/
theorem clip_dense_apply (a : FVec Ideal S4000x128 .bf16) (b : FVec Ideal S128x128 .bf16) (r : Fin 4000) (d : Fin 128) :
    maximumf (matmul dot_S4000x128_S128x128_S4000x128_1_0_0_1_n_n none a b (constant (F := Ideal) S4000x128 .f32 0x00000000#32))
        (broadcast S4000x128 (Scalar.ofBits (F := Ideal) .f32 0x00000000#32)) (ix2 r d)
      = max (∑ k : Fin 128, a (ix2 r k) * b (ix2 k d)) 0 := by
  show max (matmul dot_S4000x128_S128x128_S4000x128_1_0_0_1_n_n none a b (constant (F := Ideal) S4000x128 .f32 0x00000000#32) (ix2 r d)) (Ideal.ofBits .f32 0x00000000#32) = _
  rw [dense_apply, Ideal.ofBits_zero_f32]

/-- What the body stores, at row `r` of its block and column `d`: the row plus the table row its label selects, times
    the dense matrix, clipped at zero. -/
theorem pay_apply (x0 : Vec Ideal S4000x128 .bf16) (x1 : Vec Ideal S4000x1 .i32) (x2 : Vec Ideal S256x128 .f32)
    (x3 : Vec Ideal S128x128 .f32) (r : Fin 4000) (d : Fin 128) :
    k1_pay1 x0 x1 x2 x3 (ix2 r d)
      = max (∑ k : Fin 128, (x0 (ix2 r k) + ∑ g : Fin 256, Spec.oh (x1 (ix2 r 0)) g.val * x2 (ix2 g k)) * x3 (ix2 k d)) 0 := by
  unfold k1_pay1
  refine (clip_dense_apply _ _ r d).trans ?_
  refine congrArg (fun s : EReal => max s 0) (Finset.sum_congr rfl fun k _ => ?_)
  refine congrArg (fun s : EReal => s * x3 (ix2 k d)) ?_
  -- the left factor: the row entry (a cast to its own shape, widened and narrowed: the entry itself) plus the graph sum
  refine congrArg₂ (fun s u : EReal => s + u) (congrFun (shapeCast_self x0 shapeCasts_S4000x128_S4000x128) (ix2 r k)) ?_
  refine (gsum_apply _ _ r k).trans ?_
  refine Finset.sum_congr rfl fun g _ => ?_
  exact congrArg₂ (fun s u : EReal => s * u) (weight_apply x1 r g) (congrFun (shapeCast_self x2 shapeCasts_S256x128_S256x128) (ix2 g k))

/-! ## From the body's block to the result array

Point `t` of the grid handles the 4000 node rows from `4000 t` on: it reads those rows and their labels, the whole
per-graph table and the whole dense matrix, and writes its 4000 output rows back. -/

theorem zero_offsets : (![0, 0] : Fin 2 → Nat) = fun _ => 0 :=
  funext fun a => by match a with | ⟨0, _⟩ => rfl | ⟨1, _⟩ => rfl

/-- The body loads its four buffers whole and its one store fills the output buffer: that buffer ends holding the
    stored value of the four buffers' contents. -/
theorem out_eq (x0 : Vec Ideal S4000x128 .bf16) (x1 : Vec Ideal S4000x1 .i32) (x2 : Vec Ideal S256x128 .f32)
    (x3 : Vec Ideal S128x128 .f32) : out1_4 x0 x1 x2 x3 = k1_pay1 x0 x1 x2 x3 := by
  unfold out1_4
  rw [View.canon_unit_zero zero_offsets]
  simp only [View.ld_unit_zero (S := S4000x128) zero_offsets, View.ld_unit_zero (S := S4000x1) zero_offsets,
    View.ld_unit_zero (S := S256x128) zero_offsets, View.ld_unit_zero (S := S128x128) zero_offsets]

/-- Where each window's block sits at point `t`: the node rows, their labels and the output rows at block `t` of their
    arrays, the table and the dense matrix at their one block; and the grid has 25 points. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 25 :=
  (by decide +kernel : ∀ t : Fin grid1.N, _)

/-- Row `r` of point `t`'s block is node `4000 t + r`. -/
abbrev node (t : Fin cfg1.N) (r : Fin 4000) : Fin 100000 :=
  ⟨4000 * t.val + r.val, by have := (block_index t).2.2.2.2.2.2.2.2.2.2; have := r.isLt; omega⟩

/-- The node rows' block at point `t`: rows `4000 t` on of the array. -/
theorem rows_blk (c : Dev nD) (t : Fin cfg1.N) (r : Fin 4000) (k : Fin 128) :
    (iblk1 V c 0 t : Vec Ideal S4000x128 .bf16) (ix2 r k) = V c main_call0_v19_0 (ix2 (node t r) k) := by
  obtain ⟨e0, e1, -⟩ := block_index t
  unfold iblk1
  show V c main_call0_v19_0 (((cfg1.win 0).blk t).view.emb (ix2 r k)) = V c main_call0_v19_0 (ix2 (node t r) k)
  refine congrArg (V c main_call0_v19_0) (funext fun a => Fin.ext ?_)
  match a with
  | ⟨0, _⟩ => show win1_0.index t (0 : Fin 2) * 4000 + 1 * r.val = 4000 * t.val + r.val; omega
  | ⟨1, _⟩ => show win1_0.index t (1 : Fin 2) * 128 + 1 * k.val = k.val; omega

/-- The labels' block at point `t`: the labels of the same nodes. -/
theorem labels_blk (c : Dev nD) (t : Fin cfg1.N) (r : Fin 4000) :
    (iblk1 V c 1 t : Vec Ideal S4000x1 .i32) (ix2 r (0 : Fin 1)) = V c main_call0_v14 (ix2 (node t r) (0 : Fin 1)) := by
  obtain ⟨-, -, e0, e1, -⟩ := block_index t
  unfold iblk1
  show V c main_call0_v14 (((cfg1.win 1).blk t).view.emb (ix2 r (0 : Fin 1))) = V c main_call0_v14 (ix2 (node t r) (0 : Fin 1))
  refine congrArg (V c main_call0_v14) (funext fun a => Fin.ext ?_)
  match a with
  | ⟨0, _⟩ => show win1_1.index t (0 : Fin 2) * 4000 + 1 * r.val = 4000 * t.val + r.val; omega
  | ⟨1, _⟩ => show win1_1.index t (1 : Fin 2) * 1 + 1 * 0 = 0; omega

/-- The per-graph table is read whole at every point. -/
theorem table_blk (c : Dev nD) (t : Fin cfg1.N) (g : Fin 256) (k : Fin 128) :
    (iblk1 V c 2 t : Vec Ideal S256x128 .f32) (ix2 g k) = V c main_call0_v28 (ix2 g k) := by
  obtain ⟨-, -, -, -, e0, e1, -⟩ := block_index t
  unfold iblk1
  show V c main_call0_v28 (((cfg1.win 2).blk t).view.emb (ix2 g k)) = V c main_call0_v28 (ix2 g k)
  refine congrArg (V c main_call0_v28) (funext fun a => Fin.ext ?_)
  match a with
  | ⟨0, _⟩ => show win1_2.index t (0 : Fin 2) * 256 + 1 * g.val = g.val; omega
  | ⟨1, _⟩ => show win1_2.index t (1 : Fin 2) * 128 + 1 * k.val = k.val; omega

/-- The dense matrix is read whole at every point. -/
theorem dense_blk (c : Dev nD) (t : Fin cfg1.N) (k : Fin 128) (d : Fin 128) :
    (iblk1 V c 3 t : Vec Ideal S128x128 .f32) (ix2 k d) = V c main_arg3 (ix2 k d) := by
  obtain ⟨-, -, -, -, -, -, e0, e1, -⟩ := block_index t
  unfold iblk1
  show V c main_arg3 (((cfg1.win 3).blk t).view.emb (ix2 k d)) = V c main_arg3 (ix2 k d)
  refine congrArg (V c main_arg3) (funext fun a => Fin.ext ?_)
  match a with
  | ⟨0, _⟩ => show win1_3.index t (0 : Fin 2) * 128 + 1 * k.val = k.val; omega
  | ⟨1, _⟩ => show win1_3.index t (1 : Fin 2) * 128 + 1 * d.val = d.val; omega

/-- The layer's output as one array over the nodes and the output columns. -/
abbrev layer (c : Dev nD) : S100000x128.Idx → EReal := fun i =>
  Spec.final (rows V c) (labels V c) (table V c) (dense V c) ⟨(i 0).val, idx2_lt0 i⟩ ⟨(i 1).val, idx2_lt1 i⟩

/-- What point `t` writes back is its block of the layer's output: rows `4000 t` on. -/
theorem flushed_eq (c : Dev nD) (t : Fin cfg1.N) :
    (dat1 V c).flushed 4 t = ((cfg1.win 4).blk t).view.read (Elt Ideal) (layer V c) := by
  show (cfg1.win 4).cut (grid1.coords t) ((dat1 V c).after 4 t) = _
  rw [after1_4, out_eq (iblk1 V c 0 t) (iblk1 V c 1 t) (iblk1 V c 2 t) (iblk1 V c 3 t)]
  obtain ⟨-, -, -, -, -, -, -, -, e0, e1, -⟩ := block_index t
  funext j
  obtain ⟨r, d, rfl⟩ : ∃ (r : Fin 4000) (d : Fin 128), j = ix2 r d := ⟨j 0, j 1, eq_ix2 j⟩
  show k1_pay1 (iblk1 V c 0 t) (iblk1 V c 1 t) (iblk1 V c 2 t) (iblk1 V c 3 t) (ix2 r d)
    = layer V c (((cfg1.win 4).blk t).view.emb (ix2 r d))
  -- row `r`, column `d` of the block is node `4000 t + r`, column `d` of the array
  have hi : ((cfg1.win 4).blk t).view.emb (ix2 r d) = ix2 (node t r) d := funext fun a => Fin.ext (by
    match a with
    | ⟨0, _⟩ => show win1_4.index t (0 : Fin 2) * 4000 + 1 * r.val = 4000 * t.val + r.val; omega
    | ⟨1, _⟩ => show win1_4.index t (1 : Fin 2) * 128 + 1 * d.val = d.val; omega)
  rw [hi]
  refine (pay_apply (iblk1 V c 0 t) (iblk1 V c 1 t) (iblk1 V c 2 t) (iblk1 V c 3 t) r d).trans ?_
  show _ = Spec.final (rows V c) (labels V c) (table V c) (dense V c) (node t r) d
  unfold Spec.final
  simp only [rows_blk V c t, labels_blk V c t, table_blk V c t, dense_blk V c t]

/-- A node row and a column lie in point `t`'s output block iff the row is one of the 4000 from `4000 t` on. -/
theorem mem_blk (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v0).slice (win1_4.rect t)).set ↔ _
  rw [View.set_slice_whole, Rect.mem_set_unit]
  exact Iff.rfl

/-- Every node row is in some point's block: node `n` in that of point `n / 4000`. -/
theorem covered (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, e0, e1, -⟩ := block_index t
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- The result array after the call: the layer's output, node by node. -/
theorem arr4 (c : Dev nD) (n : Fin 100000) (d : Fin 128) :
    (dat1 V c).arrAt 4 cfg1.N (ix2 n d) = Spec.final (rows V c) (labels V c) (table V c) (dense V c) n d := by
  -- the 25 blocks written back are the blocks of one array and cover it, so the array ends holding it
  have h := (dat1 V c).arrAt_eq_of_cover 4 (layer V c) (fun t _ => flushed_eq V c t) (covered)
  exact congrFun h (ix2 n d)

end Cert.KernelIdeal.R1

end
-- ==== Proof.RefValue.lean ====
/-
  The reference, read as values: its per-graph sums are the weighted sums over all nodes, and, when every label is a
  graph, its result is `Spec.final` of its own node rows, labels, per-graph table and the dense matrix.
-/
import proofs.«411695_j30116310679887_3_alg».proof.Proof.Gen.ReferenceIdeal.Read
import proofs.«411695_j30116310679887_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The reference's node rows `H + agg`. -/
abbrev rows (h : FVec Ideal S100000x128 .f32) (e : IVec S2x1600000 32) : Fin 100000 → Fin 128 → EReal :=
  fun n k => val_main_v14 (F := Ideal) h e (ix2 n k)
/-- The node labels. -/
abbrev labels (b : IVec S100000 32) : Fin 100000 → BitVec 32 := fun n => b (ix1 n)
/-- The reference's per-graph table (sums over counts). -/
abbrev table (h : FVec Ideal S100000x128 .f32) (e : IVec S2x1600000 32) (b : IVec S100000 32) : Fin 256 → Fin 128 → EReal :=
  fun g k => val_main_v25 (F := Ideal) h e b (ix2 g k)

/-! ## The scatter-add by label, read at a row of the per-graph array -/

/-- On the row axis an update row's window starts at its label, read signed. -/
private theorem start0 (n : Fin 100000) (k' : Fin 128) (idx : IVec S100000x1 32) :
    scatter_S256x128_S100000x1_S100000x128_1_0_0_1.start (ix2 n k') idx 0 = (idx (ix2 n (0 : Fin 1))).toInt := by
  unfold ScatterDims.start
  rw [dif_pos (show (0 : Fin S256x128.rank) ∈ scatter_S256x128_S100000x1_S100000x128_1_0_0_1.scatterDimsToOperandDims by decide)]
  congr 2
  funext a
  refine Fin.ext ?_
  match a with
  | ⟨0, _⟩ => rfl
  | ⟨1, _⟩ => rfl

/-- On the feature axis the window starts at zero. -/
private theorem start1 (n : Fin 100000) (k' : Fin 128) (idx : IVec S100000x1 32) :
    scatter_S256x128_S100000x1_S100000x128_1_0_0_1.start (ix2 n k') idx 1 = 0 := by
  unfold ScatterDims.start
  rw [dif_neg (show ¬ (1 : Fin S256x128.rank) ∈ scatter_S256x128_S100000x1_S100000x128_1_0_0_1.scatterDimsToOperandDims by decide)]

/-- The row axis is inserted: the window has no coordinate there. -/
private theorem window0 (n : Fin 100000) (k' : Fin 128) :
    scatter_S256x128_S100000x1_S100000x128_1_0_0_1.window (ix2 n k') 0 = 0 := by
  unfold ScatterDims.window
  rw [dif_neg (show ¬ (0 : Fin S256x128.rank) ∈ scatter_S256x128_S100000x1_S100000x128_1_0_0_1.sKept by decide)]

/-- On the feature axis the window coordinate is the update's feature. -/
private theorem window1 (n : Fin 100000) (k' : Fin 128) :
    scatter_S256x128_S100000x1_S100000x128_1_0_0_1.window (ix2 n k') 1 = k'.val := by
  unfold ScatterDims.window
  rw [dif_pos (show (1 : Fin S256x128.rank) ∈ scatter_S256x128_S100000x1_S100000x128_1_0_0_1.sKept by decide)]
  rfl

/-- The landing condition of an update row: its label, read signed, is a row of the per-graph array. -/
private theorem inside_iff (n : Fin 100000) (k' : Fin 128) (idx : IVec S100000x1 32) :
    (∀ a, 0 ≤ scatter_S256x128_S100000x1_S100000x128_1_0_0_1.start (ix2 n k') idx a + scatter_S256x128_S100000x1_S100000x128_1_0_0_1.window (ix2 n k') a ∧ scatter_S256x128_S100000x1_S100000x128_1_0_0_1.start (ix2 n k') idx a + scatter_S256x128_S100000x1_S100000x128_1_0_0_1.window (ix2 n k') a < S256x128.size a)
      ↔ 0 ≤ (idx (ix2 n (0 : Fin 1))).toInt ∧ (idx (ix2 n (0 : Fin 1))).toInt < 256 := by
  constructor
  · intro h
    have h0 := h 0
    rw [start0, window0] at h0
    have h0' : 0 ≤ (idx (ix2 n (0 : Fin 1))).toInt + ((0 : ℕ) : ℤ) ∧ (idx (ix2 n (0 : Fin 1))).toInt + ((0 : ℕ) : ℤ) < ((256 : ℕ) : ℤ) := h0
    omega
  · intro h a
    match a with
    | ⟨0, _⟩ =>
      show 0 ≤ scatter_S256x128_S100000x1_S100000x128_1_0_0_1.start (ix2 n k') idx 0 + ((scatter_S256x128_S100000x1_S100000x128_1_0_0_1.window (ix2 n k') 0 : ℕ) : ℤ) ∧ scatter_S256x128_S100000x1_S100000x128_1_0_0_1.start (ix2 n k') idx 0 + ((scatter_S256x128_S100000x1_S100000x128_1_0_0_1.window (ix2 n k') 0 : ℕ) : ℤ) < ((256 : ℕ) : ℤ)
      rw [start0, window0]
      omega
    | ⟨1, _⟩ =>
      show 0 ≤ scatter_S256x128_S100000x1_S100000x128_1_0_0_1.start (ix2 n k') idx 1 + ((scatter_S256x128_S100000x1_S100000x128_1_0_0_1.window (ix2 n k') 1 : ℕ) : ℤ) ∧ scatter_S256x128_S100000x1_S100000x128_1_0_0_1.start (ix2 n k') idx 1 + ((scatter_S256x128_S100000x1_S100000x128_1_0_0_1.window (ix2 n k') 1 : ℕ) : ℤ) < ((128 : ℕ) : ℤ)
      rw [start1, window1]
      have := k'.isLt
      omega

/-- An update row lands on a row of the per-graph array exactly when its label, read signed, is that row. -/
private theorem lands_iff (n : Fin 100000) (k' : Fin 128) (idx : IVec S100000x1 32) (g : Fin 256) (k : Fin 128) :
    scatter_S256x128_S100000x1_S100000x128_1_0_0_1.resultIdx? (ix2 n k') idx = some (ix2 g k)
      ↔ (idx (ix2 n (0 : Fin 1))).toInt = (g.val : ℤ) ∧ k' = k := by
  unfold ScatterDims.resultIdx?
  by_cases h : ∀ a, 0 ≤ scatter_S256x128_S100000x1_S100000x128_1_0_0_1.start (ix2 n k') idx a + scatter_S256x128_S100000x1_S100000x128_1_0_0_1.window (ix2 n k') a ∧ scatter_S256x128_S100000x1_S100000x128_1_0_0_1.start (ix2 n k') idx a + scatter_S256x128_S100000x1_S100000x128_1_0_0_1.window (ix2 n k') a < S256x128.size a
  · rw [dif_pos h]
    have ht := (inside_iff n k' idx).1 h
    constructor
    · intro e
      have e' := Option.some.inj e
      have e0 := congrArg (fun f => (f 0).val) e'
      have e1 := congrArg (fun f => (f 1).val) e'
      simp only [start0, window0, start1, window1] at e0 e1
      have e0' : ((idx (ix2 n (0 : Fin 1))).toInt + ((0 : ℕ) : ℤ)).toNat = g.val := e0
      have e1' : ((0 : ℤ) + ((k'.val : ℕ) : ℤ)).toNat = k.val := e1
      exact ⟨by omega, Fin.ext (by omega)⟩
    · rintro ⟨et, rfl⟩
      congr 1
      funext a
      refine Fin.ext ?_
      match a with
      | ⟨0, _⟩ =>
        show (scatter_S256x128_S100000x1_S100000x128_1_0_0_1.start (ix2 n k') idx 0 + ((scatter_S256x128_S100000x1_S100000x128_1_0_0_1.window (ix2 n k') 0 : ℕ) : ℤ)).toNat = g.val
        rw [start0, window0, et]
        omega
      | ⟨1, _⟩ =>
        show (scatter_S256x128_S100000x1_S100000x128_1_0_0_1.start (ix2 n k') idx 1 + ((scatter_S256x128_S100000x1_S100000x128_1_0_0_1.window (ix2 n k') 1 : ℕ) : ℤ)).toNat = k'.val
        rw [start1, window1]
        omega
  · rw [dif_neg h]
    constructor
    · intro e
      cases e
    · rintro ⟨et, _⟩
      exact absurd ((inside_iff n k' idx).2 (by have := g.isLt; omega)) h

/-- A word read signed is a small natural exactly when it is that natural's word. -/
private theorem toInt_eq_iff (x : BitVec 32) (g : ℕ) (hg : g < 256) : x.toInt = (g : ℤ) ↔ x = BitVec.ofNat 32 g := by
  rw [BitVec.toInt_eq_toNat_cond]
  constructor
  · intro h
    apply BitVec.eq_of_toNat_eq
    rw [BitVec.toNat_ofNat]
    have := x.isLt
    split at h <;> omega
  · intro h
    subst h
    rw [BitVec.toNat_ofNat]
    have e : g % 2 ^ 32 = g := Nat.mod_eq_of_lt (by omega)
    rw [e]
    split <;> omega

/-- The scatter-add at a row of the per-graph array: the operand plus the update rows whose label, read signed, is that row. -/
private theorem scatter_apply (x : FVec Ideal S256x128 .f32) (idx : IVec S100000x1 32) (upd : FVec Ideal S100000x128 .f32)
    (g : Fin 256) (k : Fin 128) :
    Host.scatterAdd scatter_S256x128_S100000x1_S100000x128_1_0_0_1 x idx upd (ix2 g k)
      = x (ix2 g k) + ∑ n : Fin 100000, if (idx (ix2 n (0 : Fin 1))).toInt = (g.val : ℤ) then upd (ix2 n k) else 0 := by
  unfold Host.scatterAdd
  rw [Ideal.hostScatterAdd_def]
  unfold Ideal.hostScatterAdd
  refine congrArg (fun z => x (ix2 g k) + z) ?_
  rw [Finset.sum_filter, sum_idx2]
  refine Finset.sum_congr rfl fun n _ => ?_
  simp only [lands_iff]
  by_cases ht : (idx (ix2 n (0 : Fin 1))).toInt = (g.val : ℤ)
  · simp only [ht, true_and]
    rw [Finset.sum_ite_eq' Finset.univ k (fun k' => upd (ix2 n k'))]
    simp
  · simp only [ht, false_and, if_false, Finset.sum_const_zero]

/-- The scatter-add of the node rows by label is the weighted sum over all nodes (a label outside the graphs lands nowhere
    and weighs nothing). -/
theorem sums_eq (h : FVec Ideal S100000x128 .f32) (e : IVec S2x1600000 32) (b : IVec S100000 32) (g : Fin 256) (k : Fin 128) :
    val_main_v17 (F := Ideal) h e b (ix2 g k) = Spec.sums (rows h e) (labels b) g k := by
  unfold val_main_v17
  refine (scatter_apply _ _ _ g k).trans ?_
  -- the operand is the zero array
  rw [val_main_v15_apply, val_main_cst_1_apply, Ideal.ofBits_def, Ideal.ofBits_zero_f32, zero_add]
  unfold Spec.sums
  refine Finset.sum_congr rfl fun n _ => ?_
  -- the label column at row `n` is the label of node `n`
  rw [val_main_v16_apply]
  have hi : idx_main_v16 (ix2 n (0 : Fin 1)) = ix1 n := funext fun a => Fin.ext (by match a with | ⟨0, _⟩ => rfl)
  rw [hi]
  show (if (b (ix1 n)).toInt = (g.val : ℤ) then val_main_v14 (F := Ideal) h e (ix2 n k) else 0)
    = Spec.oh (b (ix1 n)) g.val * val_main_v14 (F := Ideal) h e (ix2 n k)
  unfold Spec.oh
  by_cases hg : b (ix1 n) = BitVec.ofNat 32 g.val
  · rw [if_pos ((toInt_eq_iff _ _ g.isLt).2 hg), if_pos hg, one_mul]
  · rw [if_neg (fun h' => hg ((toInt_eq_iff _ _ g.isLt).1 h')), if_neg hg, zero_mul]

/-! ## The gather by label and the result -/

/-- The gather at a node's row: the table's row at the node's start index, read signed and clamped into the table. -/
private theorem gather_apply {α : Type} (x : S256x128.Idx → α) (idx : IVec S100000x1 32) (n : Fin 100000) (k : Fin 128) :
    Host.gather gather_S256x128_S100000x1_S100000x128_1_0_n_n_0_1_1128 x idx (ix2 n k)
      = x (ix2 (⟨min (idx (ix2 n (0 : Fin 1))).toInt.toNat 255, by omega⟩ : Fin 256) k) := by
  unfold Host.gather
  refine congrArg x (funext fun a => Fin.ext ?_)
  match a with
  | ⟨0, _⟩ =>
    show gather_S256x128_S100000x1_S100000x128_1_0_n_n_0_1_1128.start (ix2 n k) idx 0
        + gather_S256x128_S100000x1_S100000x128_1_0_n_n_0_1_1128.batchCoord (ix2 n k) 0
        + gather_S256x128_S100000x1_S100000x128_1_0_n_n_0_1_1128.offCoord (ix2 n k) 0 = min (idx (ix2 n (0 : Fin 1))).toInt.toNat 255
    rw [GatherDims.batchCoord_eq_zero _ _ _ (by decide), GatherDims.offCoord_eq_zero _ _ _ (by decide)]
    unfold GatherDims.start
    rw [dif_pos (show (0 : Fin S256x128.rank) ∈ gather_S256x128_S100000x1_S100000x128_1_0_n_n_0_1_1128.startIndexMap by decide)]
    have hsi : gather_S256x128_S100000x1_S100000x128_1_0_n_n_0_1_1128.siIdx (ix2 n k)
        ⟨List.idxOf (0 : Fin S256x128.rank) gather_S256x128_S100000x1_S100000x128_1_0_n_n_0_1_1128.startIndexMap,
          List.idxOf_lt_length_iff.2 (by decide)⟩ = ix2 n (0 : Fin 1) := by
      funext c
      refine Fin.ext ?_
      match c with
      | ⟨0, _⟩ => rfl
      | ⟨1, _⟩ => rfl
    rw [hsi]
    rfl
  | ⟨1, _⟩ =>
    show gather_S256x128_S100000x1_S100000x128_1_0_n_n_0_1_1128.start (ix2 n k) idx 1
        + gather_S256x128_S100000x1_S100000x128_1_0_n_n_0_1_1128.batchCoord (ix2 n k) 1
        + gather_S256x128_S100000x1_S100000x128_1_0_n_n_0_1_1128.offCoord (ix2 n k) 1 = k.val
    rw [GatherDims.batchCoord_eq_zero _ _ _ (by decide)]
    unfold GatherDims.start GatherDims.offCoord
    rw [dif_neg (show ¬ (1 : Fin S256x128.rank) ∈ gather_S256x128_S100000x1_S100000x128_1_0_n_n_0_1_1128.startIndexMap by decide),
      dif_pos (show (1 : Fin S256x128.rank) ∈ gather_S256x128_S100000x1_S100000x128_1_0_n_n_0_1_1128.sKept by decide)]
    show 0 + 0 + k.val = k.val
    omega

/-- The negative-index wrap leaves a label that is a graph as it is: read signed it is not below zero. -/
private theorem wrap_eq (x A : BitVec 32) (hx : x.toNat < 256) :
    Scalar.select (IntOp.cmpi .slt x 0#32) A x = x := by
  unfold Scalar.select
  refine if_neg ?_
  unfold IntOp.cmpi
  have hx' : x.toInt = (x.toNat : ℤ) := by
    rw [BitVec.toInt_eq_toNat_cond, if_pos (by omega)]
  have h0 : (0#32 : BitVec 32).toInt = 0 := by decide
  have hs : x.slt 0#32 = false := by
    unfold BitVec.slt
    rw [hx', h0]
    exact decide_eq_false (by omega)
  show ¬ BitVec.ofBool (x.slt 0#32) = 1#1
  rw [hs]
  decide

/-- With every label a graph, the reference's result is the layer's output. -/
theorem result_eq (h : FVec Ideal S100000x128 .f32) (e : IVec S2x1600000 32) (b : IVec S100000 32) (w : FVec Ideal S128x128 .f32)
    (hb : ∀ n : Fin 100000, (b (ix1 n)).toNat < 256) (n : Fin 100000) (d : Fin 128) :
    val_main_v35 (F := Ideal) h e b w (ix2 n d)
      = Spec.final (rows h e) (labels b) (table h e b) (fun k d => w (ix2 k d)) n d := by
  rw [val_main_v35_apply, val_main_call0_v0_apply, val_main_call0_cst_apply, Ideal.ofBits_def, Ideal.ofBits_zero_f32,
    Ideal.maximumf_def, val_main_v34_apply]
  unfold Spec.final
  refine congrArg (fun z => max z 0) ?_
  refine Finset.sum_congr rfl fun k _ => ?_
  -- the product's operands at coordinates
  have hl : lidx_main_v34 (ix2 n d) k = ix2 n k := funext fun a => Fin.ext (by match a with | ⟨0, _⟩ => rfl | ⟨1, _⟩ => rfl)
  have hr : ridx_main_v34 (ix2 n d) k = ix2 k d := funext fun a => Fin.ext (by match a with | ⟨0, _⟩ => rfl | ⟨1, _⟩ => rfl)
  rw [hl, hr, val_main_v33_apply, Ideal.addf_def]
  refine congrArg (fun z => (val_main_v14 (F := Ideal) h e (ix2 n k) + z) * w (ix2 k d)) ?_
  -- the weighted sum over the graphs picks the row of the node's own label
  refine Eq.trans ?_ (Spec.oh_sum (b (ix1 n)) (hb n) (fun g => val_main_v25 (F := Ideal) h e b (ix2 g k))).symm
  -- and the gather reads that row
  unfold val_main_v32
  refine (gather_apply _ _ n k).trans ?_
  refine congrArg (fun r => val_main_v25 (F := Ideal) h e b (ix2 r k)) (Fin.ext ?_)
  show min (val_main_v31 (F := Ideal) b (ix2 n (0 : Fin 1))).toInt.toNat 255 = (b (ix1 n)).toNat
  rw [val_main_v31_apply]
  have hi : idx_main_v31 (ix2 n (0 : Fin 1)) = ix1 n := funext fun a => Fin.ext (by match a with | ⟨0, _⟩ => rfl)
  rw [hi, val_main_v30_apply, val_main_v27_apply, val_main_v26_apply, val_main_c_5_apply, wrap_eq _ _ (hb n)]
  have hx := hb n
  have hx' : (b (ix1 n)).toInt = ((b (ix1 n)).toNat : ℤ) := by
    rw [BitVec.toInt_eq_toNat_cond, if_pos (by omega)]
  rw [hx']
  omega

end Cert.ReferenceIdeal.RefValue

end
-- ==== Proof.KValue.lean ====
/-
  The kernel's program, read as one value: the result array it ends with is the reference's result function of the same
  argument arrays.  The node rows, the labels, the per-graph table and the dense matrix the second pallas_call is entered
  with are the reference's own: the rows are the first call's first result, the table is the first call's two half sums
  added (the per-graph sums over all nodes) over the same clipped counts.
-/
import proofs.«411695_j30116310679887_3_alg».proof.Proof.HostK
import proofs.«411695_j30116310679887_3_alg».proof.Proof.R0
import proofs.«411695_j30116310679887_3_alg».proof.Proof.R1
import proofs.«411695_j30116310679887_3_alg».proof.Proof.RefValue

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read (val_main_v14 val_main_v17 val_main_v24 val_main_v25 val_main_v35)

variable (m : (ℓ : Loc nD τ sig) → Buf (Elt Ideal) ℓ) (ρ : Dev nD → PrngReg)

/-- The rows the first call forms are the reference's node rows. -/
theorem rows0_eq (c : Dev nD) : R0.rows (V1 m ρ) c
    = Cert.ReferenceIdeal.RefValue.rows (m ((c : Thread nD τ).loc main_arg0)) (m ((c : Thread nD τ).loc main_arg1)) := by
  funext n k
  show @HAdd.hAdd EReal EReal EReal instHAdd (V1 m ρ c main_arg0 (ix2 n k)) (V1 m ρ c main_call0_v13 (ix2 n k)) = _
  rw [congrFun (HostK.v1_arg0 m ρ c) (ix2 n k), congrFun (HostK.v1_v13 m ρ c) (ix2 n k)]
  rfl

/-- The labels the first call reads are the argument's. -/
theorem labels0_eq (c : Dev nD) : R0.labels (V1 m ρ) c = Cert.ReferenceIdeal.RefValue.labels (m ((c : Thread nD τ).loc main_arg2)) := by
  funext n
  exact HostK.v1_v14_apply m ρ c n

/-- The rows the second call reads are the reference's node rows. -/
theorem rows1_eq (c : Dev nD) : R1.rows (V3 m ρ) c
    = Cert.ReferenceIdeal.RefValue.rows (m ((c : Thread nD τ).loc main_arg0)) (m ((c : Thread nD τ).loc main_arg1)) := by
  funext n k
  refine (congrFun (HostK.v3_v19_0 m ρ c) (ix2 n k)).trans ?_
  refine (R0.arr3 (V1 m ρ) c n k).trans ?_
  exact congrFun (congrFun (rows0_eq m ρ c) n) k

/-- The labels the second call reads are the argument's. -/
theorem labels1_eq (c : Dev nD) : R1.labels (V3 m ρ) c = Cert.ReferenceIdeal.RefValue.labels (m ((c : Thread nD τ).loc main_arg2)) := by
  funext n
  exact (congrFun (HostK.v3_v14 m ρ c) (ix2 n 0)).trans (HostK.v1_v14_apply m ρ c n)

/-- The per-graph table the second call reads is the reference's: the two half sums add up to the sums over all nodes. -/
theorem table1_eq (c : Dev nD) : R1.table (V3 m ρ) c
    = Cert.ReferenceIdeal.RefValue.table (m ((c : Thread nD τ).loc main_arg0)) (m ((c : Thread nD τ).loc main_arg1)) (m ((c : Thread nD τ).loc main_arg2)) := by
  funext g k
  refine (congrFun (HostK.v3_v28 m ρ c) (ix2 g k)).trans ?_
  show FloatOps.hostDivf (F := Ideal) (HostK.halves ((dat0 (V1 m ρ) c).arrAt 4 cfg0.N) (ix2 g k)) (val_main_v24 (F := Ideal) (m ((c : Thread nD τ).loc main_arg2)) (ix2 g k))
    = FloatOps.hostDivf (F := Ideal) (val_main_v17 (F := Ideal) (m ((c : Thread nD τ).loc main_arg0)) (m ((c : Thread nD τ).loc main_arg1)) (m ((c : Thread nD τ).loc main_arg2)) (ix2 g k)) (val_main_v24 (F := Ideal) (m ((c : Thread nD τ).loc main_arg2)) (ix2 g k))
  refine congrArg (fun s => FloatOps.hostDivf (F := Ideal) s _) ?_
  rw [HostK.halves_apply, R0.arr4 (V1 m ρ) c 0 g k, R0.arr4 (V1 m ρ) c 1 g k, Cert.ReferenceIdeal.RefValue.sums_eq, rows0_eq, labels0_eq]
  exact Spec.psum_halves _ _ g k

/-- The dense matrix the second call reads is the argument's. -/
theorem dense1_eq (c : Dev nD) : R1.dense (V3 m ρ) c = fun k d => m ((c : Thread nD τ).loc main_arg3) (ix2 k d) := by
  funext k d
  exact congrFun (HostK.v3_arg3 m ρ c) (ix2 k d)

/-- With every label a graph number, the result array the program ends with is the reference's result function of the
    argument arrays. -/
theorem result_eq (c : Dev nD) (hb : ∀ n : Fin 100000, (m ((c : Thread nD τ).loc main_arg2) (ix1 n)).toNat < 256) :
    W4 m ρ c (Proc.devRef .tc main_v0)
      = val_main_v35 (F := Ideal) (m ((c : Thread nD τ).loc main_arg0)) (m ((c : Thread nD τ).loc main_arg1))
          (m ((c : Thread nD τ).loc main_arg2)) (m ((c : Thread nD τ).loc main_arg3)) := by
  funext i
  obtain ⟨n, d, rfl⟩ : ∃ (n : Fin 100000) (d : Fin 128), i = ix2 n d := ⟨i 0, i 1, eq_ix2 i⟩
  refine (congrFun (W4_arr m ρ c 4) (ix2 n d)).trans ?_
  refine (R1.arr4 (V3 m ρ) c n d).trans ?_
  rw [Cert.ReferenceIdeal.RefValue.result_eq _ _ _ _ hb n d, rows1_eq, labels1_eq, table1_eq, dense1_eq]

end Cert.KernelIdeal.KValue

end
-- ==== Proof.lean ====
/-
  A graph-network layer with a virtual node, as two pallas_calls among host operations, against its jnp reference, over
  the extended reals.

  Both programs form the node rows `out = H + agg` (agg: the neighbours' features gathered along the edges and
  scatter-added at their destinations — the same host operations in both, carried as one function and never opened).
  The reference scatter-adds the rows by graph label into per-graph sums, divides by the per-graph node counts clipped
  below at one, gathers each node's graph row back, adds it to the node's row, multiplies by the dense matrix and clips at
  zero.  The kernel's first call writes the rows and accumulates, block of 2000 nodes by block, for each half of the
  node range, the product of the one-hot label matrix (transposed) with the rows: the per-graph sums of that half; the
  host adds the two halves and divides by the same clipped counts.  Its second call multiplies the one-hot label matrix
  with that table — for a label that is a graph number this picks the graph's row, as the reference's gather does —,
  adds the node's row, multiplies by the dense matrix and clips at zero.

  The two agree when every label is a graph number, 0 ≤ label < 256 (outside it the reference's gather reads a clamped or
  wrapped row where the one-hot product gives zero): the precondition carries that conjunct, and it is the only part of
  the precondition the proof uses.  The laws used on the extended reals are 0 · x = 0, 1 · x = x, 0 + x = x and the
  commutativity and associativity of finite sums; none needs finiteness.
-/
import proofs.«411695_j30116310679887_3_alg».proof.Defs
import proofs.«411695_j30116310679887_3_alg».proof.Proof.Gen.Kernel
import proofs.«411695_j30116310679887_3_alg».proof.Proof.Gen.Kernel.Frame
import proofs.«411695_j30116310679887_3_alg».proof.Proof.Gen.KernelIdeal
import proofs.«411695_j30116310679887_3_alg».proof.Proof.Gen.KernelIdeal.Frame
import proofs.«411695_j30116310679887_3_alg».proof.Proof.Gen.ReferenceIdeal
import proofs.«411695_j30116310679887_3_alg».proof.Proof.Gen.ReferenceIdeal.Run
import proofs.«411695_j30116310679887_3_alg».proof.Proof.Gen.ReferenceIdeal.Read
import proofs.«411695_j30116310679887_3_alg».proof.Proof.Gen.Pre_finite_inputs
import proofs.«411695_j30116310679887_3_alg».proof.Proof.RunK
import proofs.«411695_j30116310679887_3_alg».proof.Proof.PreK
import proofs.«411695_j30116310679887_3_alg».proof.Proof.KValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's result function of the kernel's argument arrays: the
    kernel's by its value read off the run, the reference's by its run at arguments that agree. -/
theorem algebraic : Cert.algebraic_KernelIdeal_ReferenceIdeal := by
  intro m ρ m' ρ' hpre hagree
  have hb : ∀ (c : Dev Cert.KernelIdeal.nD) (n : Fin 100000),
      (m ((c.tc : Thread Cert.KernelIdeal.nD Cert.KernelIdeal.τ).loc Cert.KernelIdeal.main_arg2) (ix1 n)).toNat < 256 :=
    fun c n => Cert.PreK.labels_lt _ _ _ _ (hpre c) n
  refine ⟨fun c => Cert.ReferenceIdeal.Read.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KValue.result_eq m ρ c (hb c)), (h c).2⟩)
      (Cert.KernelIdeal.RunK.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v35_eq (F := Ideal) _ _ _ _).trans ?_
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
